-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x256 : Shape := ⟨2, ![65536, 256]⟩
abbrev S7x256x256 : Shape := ⟨3, ![7, 256, 256]⟩
abbrev S7x256 : Shape := ⟨2, ![7, 256]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S7x256x256 : S_.BroadcastsInDim S7x256x256 (![] : Fin 0 → Fin S7x256x256.rank)
  reducesTo_S7x256x256_S_d0_1_2 : S7x256x256.ReducesTo [0, 1, 2] S_
  bcast_S_S7x256 : S_.BroadcastsInDim S7x256 (![] : Fin 0 → Fin S7x256.rank)
  reducesTo_S7x256_S_d0_1 : S7x256.ReducesTo [0, 1] S_

variable [Facts]

def fn_part1 {F : FTy → Type} [FloatOps F] (main_arg4 : FVec F S7x256x256 .f32) (main_arg5 : FVec F S7x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S7x256x256 .f32 := Host.absf main_arg4
  let main_cst_6 : FVec F S_ .f32 := constant S_ .f32 0x7F800000#32
  let main_v20 : FVec F S7x256x256 .f32 := broadcastInDim S7x256x256 ![] bcast_S_S7x256x256 main_cst_6
  let main_v21 : IVec S7x256x256 1 := cmpf .olt main_v19 main_v20
  let main_c_7 : IVec S_ 1 := constantI S_ 1 1#1
  let main_v22 : IVec S_ 1 := (fun x v => Host.reduce IntOp.andi x v reducesTo_S7x256x256_S_d0_1_2 h_S_) main_v21 main_c_7
  let main_v23 : IVec S_ 1 := andi main_v18 main_v22
  let main_v24 : FVec F S7x256 .f32 := Host.absf main_arg5
  let main_cst_8 : FVec F S_ .f32 := constant S_ .f32 0x7F800000#32
  let main_v25 : FVec F S7x256 .f32 := broadcastInDim S7x256 ![] bcast_S_S7x256 main_cst_8
  let main_v26 : IVec S7x256 1 := cmpf .olt main_v24 main_v25
  let main_c_9 : IVec S_ 1 := constantI S_ 1 1#1
  let main_v27 : IVec S_ 1 := (fun x v => Host.reduce IntOp.andi x v reducesTo_S7x256_S_d0_1 h_S_) main_v26 main_c_9
  let main_v28 : IVec S_ 1 := andi main_v23 main_v27
  main_v28

def fn {F : FTy → Type} [FloatOps F] (main_arg0 : FVec F S65536 .f32) (main_arg1 : FVec F S65536x256 .f32) (main_arg2 : FVec F S65536x256 .f32) (main_arg3 : FVec F S65536x256 .f32) (main_arg4 : FVec F S7x256x256 .f32) (main_arg5 : FVec F S7x256 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_v13 main_v16
-- ==== Kernel.lean ====
abbrev S65536 : Shape := ⟨1, ![65536]⟩
abbrev S65536x256 : Shape := ⟨2, ![65536, 256]⟩
abbrev S7x256x256 : Shape := ⟨3, ![7, 256, 256]⟩
abbrev S7x256 : Shape := ⟨2, ![7, 256]⟩
abbrev S65536x1 : Shape := ⟨2, ![65536, 1]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 12
  | .vmem => 20
  | .smem => 0
  | _ => 0

abbrev bufTy : (tb : Table) → Fin (tcTables nBuf tb) → BufTy
  | .hbm, ⟨0, _⟩ => ⟨S65536, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S7x256x256, .f32⟩
  | .hbm, ⟨5, _⟩ => ⟨S7x256, .f32⟩
  | .hbm, ⟨6, _⟩ => ⟨S65536x1, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x256, .f32⟩
  | .local _ .vmem, ⟨0, _⟩ => ⟨S1024x1, .f32⟩
  | .local _ .vmem, ⟨1, _⟩ => ⟨S1024x1, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S7x256x256, .f32⟩
  | .local _ .vmem, ⟨9, _⟩ => ⟨S7x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S65536_S65536x1 : S65536.ShapeCasts S65536x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S7x256x256_S1x256x256_0_0_0 : ∀ a, (![0, 0, 0] : Fin 3 → Nat) a + S1x256x256.size a ≤ S7x256x256.size a
  h_S1x256x256 : 0 < S1x256x256.numel
  shapeCasts_S1x256x256_S256x256 : S1x256x256.ShapeCasts S256x256
  inb_S7x256_S1x256_0_0 : ∀ a, (![0, 0] : Fin 2 → Nat) a + S1x256.size a ≤ S7x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S7x256x256_S1x256x256_1_0_0 : ∀ a, (![1, 0, 0] : Fin 3 → Nat) a + S1x256x256.size a ≤ S7x256x256.size a
  inb_S7x256_S1x256_1_0 : ∀ a, (![1, 0] : Fin 2 → Nat) a + S1x256.size a ≤ S7x256.size a
  inb_S7x256x256_S1x256x256_2_0_0 : ∀ a, (![2, 0, 0] : Fin 3 → Nat) a + S1x256x256.size a ≤ S7x256x256.size a
  inb_S7x256_S1x256_2_0 : ∀ a, (![2, 0] : Fin 2 → Nat) a + S1x256.size a ≤ S7x256.size a
  inb_S7x256x256_S1x256x256_3_0_0 : ∀ a, (![3, 0, 0] : Fin 3 → Nat) a + S1x256x256.size a ≤ S7x256x256.size a
  inb_S7x256_S1x256_3_0 : ∀ a, (![3, 0] : Fin 2 → Nat) a + S1x256.size a ≤ S7x256.size a
  inb_S7x256x256_S1x256x256_4_0_0 : ∀ a, (![4, 0, 0] : Fin 3 → Nat) a + S1x256x256.size a ≤ S7x256x256.size a
  inb_S7x256_S1x256_4_0 : ∀ a, (![4, 0] : Fin 2 → Nat) a + S1x256.size a ≤ S7x256.size a
  inb_S7x256x256_S1x256x256_5_0_0 : ∀ a, (![5, 0, 0] : Fin 3 → Nat) a + S1x256x256.size a ≤ S7x256x256.size a
  inb_S7x256_S1x256_5_0 : ∀ a, (![5, 0] : Fin 2 → Nat) a + S1x256.size a ≤ S7x256.size a
  inb_S7x256x256_S1x256x256_6_0_0 : ∀ a, (![6, 0, 0] : Fin 3 → Nat) a + S1x256x256.size a ≤ S7x256x256.size a
  inb_S7x256_S1x256_6_0 : ∀ a, (![6, 0] : Fin 2 → Nat) a + S1x256.size a ≤ S7x256.size a
  broadcasts_S1024x1_S1024x256 : S1024x1.Broadcasts S1024x256
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S65536x1.size a
  hwx0_0 : ∀ i : grid0.Coords, EltTy.bits .f32 = 32 ∨ (Rect.block (s := S65536x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x256x256.size a ≤ S7x256x256.size a
  hwx0_4 : ∀ i : grid0.Coords, EltTy.bits .f32 = 32 ∨ (Rect.block (s := S7x256x256) S7x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x256.size a ≤ S7x256.size a
  hwx0_5 : ∀ i : grid0.Coords, EltTy.bits .f32 = 32 ∨ (Rect.block (s := S7x256) S7x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S65536x256.size a
  hwx0_8 : ∀ i : grid0.Coords, EltTy.bits .f32 = 32 ∨ (Rect.block (s := S65536x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S65536x256.size a
  hwx0_9 : ∀ i : grid0.Coords, EltTy.bits .f32 = 32 ∨ (Rect.block (s := S65536x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S7x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_3) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_4) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536 : Shape := ⟨1, ![65536]⟩
abbrev S65536x256 : Shape := ⟨2, ![65536, 256]⟩
abbrev S7x256x256 : Shape := ⟨3, ![7, 256, 256]⟩
abbrev S7x256 : Shape := ⟨2, ![7, 256]⟩
abbrev S7x256x65536 : Shape := ⟨3, ![7, 256, 65536]⟩
abbrev S7x65536x256 : Shape := ⟨3, ![7, 65536, 256]⟩
abbrev S7x1x256 : Shape := ⟨3, ![7, 1, 256]⟩
abbrev S1x65536x256 : Shape := ⟨3, ![1, 65536, 256]⟩
abbrev S_ : Shape := ⟨0, ![]⟩
abbrev S65536x1 : Shape := ⟨2, ![65536, 1]⟩

abbrev nBuf : Space → Nat
  | .hbm => 96
  | .vmem => 0
  | .smem => 0
  | _ => 0

abbrev bufTy : (tb : Table) → Fin (tcTables nBuf tb) → BufTy
  | .hbm, ⟨0, _⟩ => ⟨S65536, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S7x256x256, .f32⟩
  | .hbm, ⟨5, _⟩ => ⟨S7x256, .f32⟩
  | .hbm, ⟨6, _⟩ => ⟨S7x256x65536, .f32⟩
  | .hbm, ⟨7, _⟩ => ⟨S7x65536x256, .f32⟩
  | .hbm, ⟨8, _⟩ => ⟨S7x1x256, .f32⟩
  | .hbm, ⟨9, _⟩ => ⟨S7x65536x256, .f32⟩
  | .hbm, ⟨10, _⟩ => ⟨S7x65536x256, .f32⟩
  | .hbm, ⟨11, _⟩ => ⟨S1x65536x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S1x65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S1x65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S1x65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S_, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S1x65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S_, .f32⟩
  | .hbm, ⟨56, _⟩ => ⟨S65536x256, .f32⟩
  | .hbm, ⟨57, _⟩ => ⟨S65536x256, .f32⟩
  | .hbm, ⟨58, _⟩ => ⟨S_, .f32⟩
  | .hbm, ⟨59, _⟩ => ⟨S65536x256, .f32⟩
  | .hbm, ⟨60, _⟩ => ⟨S65536x256, .f32⟩
  | .hbm, ⟨61, _⟩ => ⟨S1x65536x256, .f32⟩
  | .hbm, ⟨62, _⟩ => ⟨S65536x256, .f32⟩
  | .hbm, ⟨63, _⟩ => ⟨S65536x256, .f32⟩
  | .hbm, ⟨64, _⟩ => ⟨S1x65536x256, .f32⟩
  | .hbm, ⟨65, _⟩ => ⟨S65536x256, .f32⟩
  | .hbm, ⟨66, _⟩ => ⟨S_, .f32⟩
  | .hbm, ⟨67, _⟩ => ⟨S65536x256, .f32⟩
  | .hbm, ⟨68, _⟩ => ⟨S65536x256, .f32⟩
  | .hbm, ⟨69, _⟩ => ⟨S65536x256, .f32⟩
  | .hbm, ⟨70, _⟩ => ⟨S65536x256, .f32⟩
  | .hbm, ⟨71, _⟩ => ⟨S65536x256, .i1⟩
  | .hbm, ⟨72, _⟩ => ⟨S65536x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S65536x256, .f32⟩
  | .hbm, ⟨79, _⟩ => ⟨S65536x256, .f32⟩
  | .hbm, ⟨80, _⟩ => ⟨S65536x1, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256, .f32⟩
  | .hbm, ⟨90, _⟩ => ⟨S65536x256, .f32⟩
  | .hbm, ⟨91, _⟩ => ⟨S65536x256, .f32⟩
  | .hbm, ⟨92, _⟩ => ⟨S65536x256, .f32⟩
  | .hbm, ⟨93, _⟩ => ⟨S65536x256, .f32⟩
  | .hbm, ⟨94, _⟩ => ⟨S65536x256, .f32⟩
  | .hbm, ⟨95, _⟩ => ⟨S65536x256, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  transposes_S7x256x65536_S7x65536x256_0_2_1 : S7x256x65536.Transposes [0, 2, 1] S7x65536x256
  bcast_S7x256_S7x1x256_0_2 : S7x256.BroadcastsInDim S7x1x256 (![0, 2] : Fin 2 → Fin S7x1x256.rank)
  bcast_S7x1x256_S7x65536x256_0_1_2 : S7x1x256.BroadcastsInDim S7x65536x256 (![0, 1, 2] : Fin 3 → Fin S7x65536x256.rank)
  slices_S7x65536x256_S1x65536x256_0_0_0 : S7x65536x256.Slices ![0, 0, 0] S1x65536x256
  shapeCasts_S1x65536x256_S65536x256 : S1x65536x256.ShapeCasts S65536x256
  bcast_S_S65536x256 : S_.BroadcastsInDim S65536x256 (![] : Fin 0 → Fin S65536x256.rank)
  slices_S7x65536x256_S1x65536x256_1_0_0 : S7x65536x256.Slices ![1, 0, 0] S1x65536x256
  slices_S7x65536x256_S1x65536x256_2_0_0 : S7x65536x256.Slices ![2, 0, 0] S1x65536x256
  slices_S7x65536x256_S1x65536x256_3_0_0 : S7x65536x256.Slices ![3, 0, 0] S1x65536x256
  slices_S7x65536x256_S1x65536x256_4_0_0 : S7x65536x256.Slices ![4, 0, 0] S1x65536x256
  slices_S7x65536x256_S1x65536x256_5_0_0 : S7x65536x256.Slices ![5, 0, 0] S1x65536x256
  slices_S7x65536x256_S1x65536x256_6_0_0 : S7x65536x256.Slices ![6, 0, 0] S1x65536x256
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  dot_S7x256x256_S65536x256_S7x256x65536_2_1_01_0_n_n_wf : DotDims.WF S7x256x256 S65536x256 S7x256x65536 [2] [1] [0, 1] [0] [] []

variable [Facts₀]

def dot_S7x256x256_S65536x256_S7x256x65536_2_1_01_0_n_n : DotDims S7x256x256 S65536x256 S7x256x65536 where
  lhsContracting := [2]
  rhsContracting := [1]
  lhsNonContracting := [0, 1]
  rhsNonContracting := [0]
  lhsBatch := []
  rhsBatch := []
  wf := dot_S7x256x256_S65536x256_S7x256x65536_2_1_01_0_n_n_wf

class Facts : Prop extends Facts₀ where

variable [Facts]
-- ==== Proof.KernelDot.lean ====
/-
  One gate's product inside a block. The body multiplies the block of h, [1024, 256], by one gate's weights, [256, 256],
  contracting h's input-unit axis against the weights' input-unit axis, into a zero accumulator: at row p and unit q the
  result is Σ_k h[p, k] · W_g[q, k]. The weights arrive as the [1, 256, 256] slice the body loaded, reshaped to [256, 256];
  the changes of float format are the identity on the extended reals. The bias row [1, 256], reshaped to [256] and back and
  broadcast down the 1024 rows, reads at (p, q) as its entry q.
-/
import proofs.«162727_j27230092657708_1_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.CtLstm.Kernel

open Cert.KernelIdeal Cert.KernelIdeal.Facts₀ Idealize.ShloMosaic Idealize.ShloMosaic.ValueIdx

/-- The left operand's row axis follows the result's row. -/
theorem lhs_dot_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
/-- The left operand's input-unit axis is the contracted one. -/
theorem lhs_dot_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
/-- The right operand's output-unit axis follows the result's column. -/
theorem rhs_dot_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
/-- The right operand's input-unit axis is the contracted one. -/
theorem rhs_dot_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- A gate's product at row p and unit q: the sum over the input units k of the row's entry times the weight slice's
    entry (0, q, k). -/
theorem gateDot_apply (x : FVec Ideal S1024x256 .bf16) (w : Vec Ideal S1x256x256 .f32) (p : Fin 1024) (q : Fin 256) :
    matmul dot_S1024x256_S256x256_S1024x256_1_1_0_0_n_n none x (truncf .bf16 (shapeCast S256x256 w shapeCasts_S1x256x256_S256x256) bitsLt_bf16_f32)
        (constant S1024x256 .f32 0x00000000#32) (ix2 p q)
      = ∑ k : Fin 256, x (ix2 p k) * w (ix3 0 q k) := by
  unfold matmul
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 p q) ((contrEquiv1 dot_S1024x256_S256x256_S1024x256_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x256_S1024x256_1_1_0_0_n_n.rhsIdx (ix2 p q) ((contrEquiv1 dot_S1024x256_S256x256_S1024x256_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]
  refine congrArg (x (ix2 p k) * ·) ?_
  show shapeCast S256x256 w shapeCasts_S1x256x256_S256x256 (ix2 q k) = w (ix3 0 q k)
  exact shapeCast_apply w _ (ix2 q k) (ix3 0 q k) (by
    have hq : q.val < 256 := q.isLt
    have hk' : k.val < 256 := k.isLt
    rw [Shape.rowMajor_val_three, Shape.rowMajor_val_two]
    show (0 * 256 + q.val) * 256 + k.val = q.val * 256 + k.val
    omega)

/-- The bias row broadcast down the block's rows reads at (p, q) as its entry q. -/
theorem biasRow_apply (v : Vec Ideal S1x256 .f32) (p : Fin 1024) (q : Fin 256) :
    broadcastTo S1024x256 (shapeCast S1x256 (shapeCast S256 v shapeCasts_S1x256_S256) shapeCasts_S256_S1x256)
        broadcasts_S1x256_S1024x256 (ix2 p q) = v (ix2 0 q) := by
  rw [shapeCast_shapeCast]
  exact broadcastTo_apply v _ (ix2 p q) (ix2 0 q) (fun a => match a with
    | ⟨0, _⟩ => by show 0 = (if (1 : Nat) = 1 then 0 else p.val); rw [if_pos rfl]
    | ⟨1, _⟩ => by show q.val = (if (256 : Nat) = 1 then 0 else q.val); rw [if_neg (by decide)])

end Cert.CtLstm.Kernel

end
-- ==== Proof.Spec.lean ====
/-
  The continuous-time LSTM cell update, as ONE function of the six argument arrays per result, index by index, over the
  extended reals. With  z_g[r, o] = Σ_k h[r, k] · W[g, o, k] + b[g, o]  the seven gate logits of batch row r and unit o:

    i = σ(z_0)   f = σ(z_1)   o = σ(z_2)   ī = σ(z_3)   f̄ = σ(z_4)   z = tanh(z_5)   δ = softplus(z_6)
    c(t) = c̄ + (c − c̄) · exp(−δ · Δt[r])
    results:  o,   o · tanh(c(t)),   f · c(t) + i · z,   f̄ · c̄ + ī · z,   δ

  σ is the logistic function 1 / (1 + e^(−x)); softplus is written as jax expands logaddexp(x, 0): the maximum of x and 0
  plus log(1 + e^(−|x − 0|)), behind a guard  x − 0 ≠ x − 0  that never fires on the extended reals.
-/
import Idealize.ShloMosaic.PureOps.Ideal
import Idealize.ShloMosaic.Lib.ValueIdx

noncomputable section

open scoped BigOperators

namespace Cert.CtLstm

open Idealize.ShloMosaic Idealize.ShloMosaic.ValueIdx

/-- The batch of inter-event times: [65536]. -/
abbrev SB : Shape := ⟨1, ![65536]⟩
/-- Hidden state, cell state, cell target and every result: [65536, 256]. -/
abbrev SBH : Shape := ⟨2, ![65536, 256]⟩
/-- The seven gates' weights: [7, 256, 256], gate × output unit × input unit. -/
abbrev SGHH : Shape := ⟨3, ![7, 256, 256]⟩
/-- The seven gates' biases: [7, 256]. -/
abbrev SGH : Shape := ⟨2, ![7, 256]⟩

/-- softplus as jax's logaddexp(x, 0) spells it: where  x − 0 ≠ x − 0  (never, on the extended reals) the sum x + 0,
    elsewhere  max(x, 0) + log(1 + e^(−|x − 0|)),  the absolute value as the maximum of a number and its negative. -/
def softplus (x : EReal) : EReal :=
  Scalar.select (Ideal.cmp .une (x - 0) (x - 0)) (x + 0)
    (max x 0 + Ideal.log1p (Ideal.exp (-(max (x - 0) (-(x - 0))))))

section
variable (dt : Vec Ideal SB .f32) (h c cbar : Vec Ideal SBH .f32) (W : Vec Ideal SGHH .f32) (b : Vec Ideal SGH .f32)

/-- Gate g's logit at batch row r and output unit o: the row of h against row o of W[g], plus the bias. -/
def logit (g : Fin 7) (r : Fin 65536) (o : Fin 256) : EReal :=
  (∑ k : Fin 256, h (ix2 r k) * W (ix3 g o k)) + b (ix2 g o)

/-- The decay rate δ = softplus(z_6). -/
def decay (r : Fin 65536) (o : Fin 256) : EReal := softplus (logit h W b 6 r o)

/-- The cell state decayed over the inter-event time: c(t) = c̄ + (c − c̄) · exp(−δ · Δt). -/
def cellAt (r : Fin 65536) (o : Fin 256) : EReal :=
  cbar (ix2 r o) + (c (ix2 r o) - cbar (ix2 r o)) * Ideal.exp (-(decay h W b r o) * dt (ix1 r))

/-- Result 0: the output gate o = σ(z_2). -/
def outGate : Vec Ideal SBH .f32 := fun y => Ideal.logistic (logit h W b 2 (y 0) (y 1))

/-- Result 1: the new hidden state o · tanh(c(t)). -/
def hiddenNew : Vec Ideal SBH .f32 := fun y =>
  Ideal.logistic (logit h W b 2 (y 0) (y 1)) * Ideal.tanh (cellAt dt h c cbar W b (y 0) (y 1))

/-- Result 2: the new cell state f · c(t) + i · z. -/
def cellNew : Vec Ideal SBH .f32 := fun y =>
  Ideal.logistic (logit h W b 1 (y 0) (y 1)) * cellAt dt h c cbar W b (y 0) (y 1)
    + Ideal.logistic (logit h W b 0 (y 0) (y 1)) * Ideal.tanh (logit h W b 5 (y 0) (y 1))

/-- Result 3: the new cell target f̄ · c̄ + ī · z. -/
def targetNew : Vec Ideal SBH .f32 := fun y =>
  Ideal.logistic (logit h W b 4 (y 0) (y 1)) * cbar (ix2 (y 0) (y 1))
    + Ideal.logistic (logit h W b 3 (y 0) (y 1)) * Ideal.tanh (logit h W b 5 (y 0) (y 1))

/-- Result 4: the decay rate δ. -/
def decayOut : Vec Ideal SBH .f32 := fun y => decay h W b (y 0) (y 1)

end

end Cert.CtLstm

end
-- ==== Proof.KernelPoint.lean ====
/-
  What the body computes at one row p and unit q of a block, in terms of the block of h (x1), all of W (x4) and all of b
  (x5): gate g's slice of W, loaded as [1, 256, 256], is W[g, ·, ·] and its bias row, loaded as [1, 256], is b[g, ·], so
  the gate's product plus the broadcast bias is  Σ_k x1[p, k] · x4[g, q, k] + x5[g, q],  the logit inside the block. The
  body's softplus, jax's logaddexp(x, 0) lowered with a subtraction from zero for the negation and an ordered "not equal"
  for the guard, is the specification's softplus on the extended reals.
-/
import proofs.«162727_j27230092657708_1_alg».proof.Proof.KernelValueLeg
import proofs.«162727_j27230092657708_1_alg».proof.Proof.KernelDot
import proofs.«162727_j27230092657708_1_alg».proof.Proof.Spec

noncomputable section

open scoped BigOperators

namespace Cert.CtLstm.Kernel

open Cert.KernelIdeal Cert.KernelIdeal.Gen Idealize.ShloMosaic Idealize.ShloMosaic.ValueIdx Cert.CtLstm

/-- The offsets of a rectangle that starts at the origin of a rank-2 buffer. -/
theorem origin2 : (![0, 0] : Fin 2 → Nat) = fun _ => 0 := funext fun a => by fin_cases a <;> rfl

/-! ## The slices of W and b the body loads -/

theorem ldW0 (x4 : Vec Ideal S7x256x256 .f32) (q k : Fin 256) : View.ld x4 r0_2 (ix3 0 q k) = x4 (ix3 0 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb0 (x5 : Vec Ideal S7x256 .f32) (q : Fin 256) : View.ld x5 r0_3 (ix2 0 q) = x5 (ix2 0 q) :=
  congrArg x5 (funext fun a => Fin.ext (by
    match a with
    | ⟨0, _⟩ => rfl
    | ⟨1, _⟩ => show 0 + 1 * q.val = q.val; omega))

theorem ldW1 (x4 : Vec Ideal S7x256x256 .f32) (q k : Fin 256) : View.ld x4 r0_4 (ix3 0 q k) = x4 (ix3 1 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb1 (x5 : Vec Ideal S7x256 .f32) (q : Fin 256) : View.ld x5 r0_5 (ix2 0 q) = x5 (ix2 1 q) :=
  congrArg x5 (funext fun a => Fin.ext (by
    match a with
    | ⟨0, _⟩ => rfl
    | ⟨1, _⟩ => show 0 + 1 * q.val = q.val; omega))

theorem ldW2 (x4 : Vec Ideal S7x256x256 .f32) (q k : Fin 256) : View.ld x4 r0_6 (ix3 0 q k) = x4 (ix3 2 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb2 (x5 : Vec Ideal S7x256 .f32) (q : Fin 256) : View.ld x5 r0_7 (ix2 0 q) = x5 (ix2 2 q) :=
  congrArg x5 (funext fun a => Fin.ext (by
    match a with
    | ⟨0, _⟩ => rfl
    | ⟨1, _⟩ => show 0 + 1 * q.val = q.val; omega))

theorem ldW3 (x4 : Vec Ideal S7x256x256 .f32) (q k : Fin 256) : View.ld x4 r0_8 (ix3 0 q k) = x4 (ix3 3 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb3 (x5 : Vec Ideal S7x256 .f32) (q : Fin 256) : View.ld x5 r0_9 (ix2 0 q) = x5 (ix2 3 q) :=
  congrArg x5 (funext fun a => Fin.ext (by
    match a with
    | ⟨0, _⟩ => rfl
    | ⟨1, _⟩ => show 0 + 1 * q.val = q.val; omega))

theorem ldW4 (x4 : Vec Ideal S7x256x256 .f32) (q k : Fin 256) : View.ld x4 r0_10 (ix3 0 q k) = x4 (ix3 4 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb4 (x5 : Vec Ideal S7x256 .f32) (q : Fin 256) : View.ld x5 r0_11 (ix2 0 q) = x5 (ix2 4 q) :=
  congrArg x5 (funext fun a => Fin.ext (by
    match a with
    | ⟨0, _⟩ => rfl
    | ⟨1, _⟩ => show 0 + 1 * q.val = q.val; omega))

theorem ldW5 (x4 : Vec Ideal S7x256x256 .f32) (q k : Fin 256) : View.ld x4 r0_12 (ix3 0 q k) = x4 (ix3 5 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb5 (x5 : Vec Ideal S7x256 .f32) (q : Fin 256) : View.ld x5 r0_13 (ix2 0 q) = x5 (ix2 5 q) :=
  congrArg x5 (funext fun a => Fin.ext (by
    match a with
    | ⟨0, _⟩ => rfl
    | ⟨1, _⟩ => show 0 + 1 * q.val = q.val; omega))

theorem ldW6 (x4 : Vec Ideal S7x256x256 .f32) (q k : Fin 256) : View.ld x4 r0_14 (ix3 0 q k) = x4 (ix3 6 q k) :=
  congrArg x4 (funext fun a => Fin.ext (by
    match a with
    | ⟨0, _⟩ => rfl
    | ⟨1, _⟩ => show 0 + 1 * q.val = q.val; omega
    | ⟨2, _⟩ => show 0 + 1 * k.val = k.val; omega))
theorem ldb6 (x5 : Vec Ideal S7x256 .f32) (q : Fin 256) : View.ld x5 r0_15 (ix2 0 q) = x5 (ix2 6 q) :=
  congrArg x5 (funext fun a => Fin.ext (by
    match a with
    | ⟨0, _⟩ => rfl
    | ⟨1, _⟩ => show 0 + 1 * q.val = q.val; omega))

/-! ## A gate's logit inside a block -/

/-- Gate g's logit at row p of the block and unit q. -/
def blockLogit (x1 : Vec Ideal S1024x256 .f32) (x4 : Vec Ideal S7x256x256 .f32) (x5 : Vec Ideal S7x256 .f32)
    (g : Fin 7) (p : Fin 1024) (q : Fin 256) : EReal :=
  (∑ k : Fin 256, x1 (ix2 p k) * x4 (ix3 g q k)) + x5 (ix2 g q)

/-- A gate's product over a weight slice w that is W[g, ·, ·], from a left operand X that is the h block. -/
theorem dotSlice (x1 : Vec Ideal S1024x256 .f32) (x4 : Vec Ideal S7x256x256 .f32) (g : Fin 7)
    (X : FVec Ideal S1024x256 .bf16) (hX : ∀ i, X i = x1 i)
    (w : Vec Ideal S1x256x256 .f32) (hw : ∀ q k : Fin 256, w (ix3 0 q k) = x4 (ix3 g q k)) (p : Fin 1024) (q : Fin 256) :
    matmul dot_S1024x256_S256x256_S1024x256_1_1_0_0_n_n none X
        (truncf .bf16 (shapeCast S256x256 w shapeCasts_S1x256x256_S256x256) bitsLt_bf16_f32)
        (constant S1024x256 .f32 0x00000000#32) (ix2 p q)
      = ∑ k : Fin 256, x1 (ix2 p k) * x4 (ix3 g q k) := by
  rw [gateDot_apply]
  exact Finset.sum_congr rfl fun k _ => by rw [hX, hw]

/-- The product plus the broadcast bias row bv that is b[g, ·]: the logit inside the block. -/
theorem logitSlice (x1 : Vec Ideal S1024x256 .f32) (x4 : Vec Ideal S7x256x256 .f32) (x5 : Vec Ideal S7x256 .f32) (g : Fin 7)
    (X : FVec Ideal S1024x256 .bf16) (hX : ∀ i, X i = x1 i)
    (w : Vec Ideal S1x256x256 .f32) (hw : ∀ q k : Fin 256, w (ix3 0 q k) = x4 (ix3 g q k))
    (bv : Vec Ideal S1x256 .f32) (hb : ∀ q : Fin 256, bv (ix2 0 q) = x5 (ix2 g q)) (p : Fin 1024) (q : Fin 256) :
    FloatOps.addf (F := Ideal) (φ := .f32)
        (matmul dot_S1024x256_S256x256_S1024x256_1_1_0_0_n_n none X
          (truncf .bf16 (shapeCast S256x256 w shapeCasts_S1x256x256_S256x256) bitsLt_bf16_f32)
          (constant S1024x256 .f32 0x00000000#32) (ix2 p q))
        (broadcastTo S1024x256 (shapeCast S1x256 (shapeCast S256 bv shapeCasts_S1x256_S256) shapeCasts_S256_S1x256)
          broadcasts_S1x256_S1024x256 (ix2 p q))
      = blockLogit x1 x4 x5 g p q := by
  rw [dotSlice x1 x4 g X hX w hw, biasRow_apply, hb]
  rfl

/-! ## The body's softplus -/

/-- The body's spelling of softplus at a number x, over its zero literal. -/
theorem softplus_body (x : EReal) :
    Scalar.select (FloatOps.cmpf (F := Ideal) (φ := .f32) .one (FloatOps.subf (F := Ideal) (φ := .f32) x (Scalar.ofBits (F := Ideal) .f32 0x00000000#32)) (FloatOps.subf (F := Ideal) (φ := .f32) x (Scalar.ofBits (F := Ideal) .f32 0x00000000#32)))
        (FloatOps.addf (F := Ideal) (φ := .f32) x (Scalar.ofBits (F := Ideal) .f32 0x00000000#32))
        (FloatOps.addf (F := Ideal) (φ := .f32) (FloatOps.maximumf (F := Ideal) (φ := .f32) x (Scalar.ofBits (F := Ideal) .f32 0x00000000#32))
          (FloatOps.log1p (F := Ideal) (φ := .f32) (FloatOps.exp (F := Ideal) (φ := .f32) (FloatOps.subf (F := Ideal) (φ := .f32) (Scalar.ofBits (F := Ideal) .f32 0x00000000#32)
            (FloatOps.absf (F := Ideal) (φ := .f32) (FloatOps.subf (F := Ideal) (φ := .f32) x (Scalar.ofBits (F := Ideal) .f32 0x00000000#32)))))))
      = softplus x := by
  have hz : (Scalar.ofBits (F := Ideal) .f32 0x00000000#32) = (0 : EReal) := Ideal.ofBits_zero_f32
  rw [hz]
  unfold softplus
  show Scalar.select (Ideal.cmp .one (x - 0) (x - 0)) (x + 0) (max x 0 + Ideal.log1p (Ideal.exp (0 - max (x - 0) (-(x - 0))))) = _
  rw [zero_sub]
  rfl

/-! ## Where the generated block functions read their operands: at (p, q) itself, at (0, q) of a row, at (p, 0) of a column -/

theorem ix6_0_at (p : Fin 1024) (q : Fin 256) : Value.ix6_0 (ix2 p q) = ix2 p q :=
  funext fun a => Fin.ext (by match a with | ⟨0, _⟩ => rfl | ⟨1, _⟩ => rfl)
theorem ix6_1_at (p : Fin 1024) (q : Fin 256) : Value.ix6_1 (ix2 p q) = ix2 0 q :=
  funext fun a => Fin.ext (by match a with | ⟨0, _⟩ => rfl | ⟨1, _⟩ => rfl)
theorem ix7_0_at (p : Fin 1024) (q : Fin 256) : Value.ix7_0 (ix2 p q) = ix2 p q :=
  funext fun a => Fin.ext (by match a with | ⟨0, _⟩ => rfl | ⟨1, _⟩ => rfl)
theorem ix7_1_at (p : Fin 1024) (q : Fin 256) : Value.ix7_1 (ix2 p q) = ix2 0 q :=
  funext fun a => Fin.ext (by match a with | ⟨0, _⟩ => rfl | ⟨1, _⟩ => rfl)
theorem ix7_2_at (p : Fin 1024) (q : Fin 256) : Value.ix7_2 (ix2 p q) = ix2 p q :=
  funext fun a => Fin.ext (by match a with | ⟨0, _⟩ => rfl | ⟨1, _⟩ => rfl)
theorem ix7_3_at (p : Fin 1024) (q : Fin 256) : Value.ix7_3 (ix2 p q) = ix2 p q :=
  funext fun a => Fin.ext (by match a with | ⟨0, _⟩ => rfl | ⟨1, _⟩ => rfl)
theorem ix7_4_at (p : Fin 1024) (q : Fin 256) : Value.ix7_4 (ix2 p q) = ix2 p q :=
  funext fun a => Fin.ext (by match a with | ⟨0, _⟩ => rfl | ⟨1, _⟩ => rfl)
theorem ix7_5_at (p : Fin 1024) (q : Fin 256) : Value.ix7_5 (ix2 p q) = ix2 p q :=
  funext fun a => Fin.ext (by match a with | ⟨0, _⟩ => rfl | ⟨1, _⟩ => rfl)
theorem ix7_6_at (p : Fin 1024) (q : Fin 256) : Value.ix7_6 (ix2 p q) = ix2 0 q :=
  funext fun a => Fin.ext (by match a with | ⟨0, _⟩ => rfl | ⟨1, _⟩ => rfl)
theorem ix7_7_at (p : Fin 1024) (q : Fin 256) : Value.ix7_7 (ix2 p q) = ix2 p q :=
  funext fun a => Fin.ext (by match a with | ⟨0, _⟩ => rfl | ⟨1, _⟩ => rfl)
theorem ix7_8_at (p : Fin 1024) (q : Fin 256) : Value.ix7_8 (ix2 p q) = ix2 0 q :=
  funext fun a => Fin.ext (by match a with | ⟨0, _⟩ => rfl | ⟨1, _⟩ => rfl)
theorem ix7_9_at (p : Fin 1024) (q : Fin 256) : Value.ix7_9 (ix2 p q) = ix2 p q :=
  funext fun a => Fin.ext (by match a with | ⟨0, _⟩ => rfl | ⟨1, _⟩ => rfl)
theorem ix7_10_at (p : Fin 1024) (q : Fin 256) : Value.ix7_10 (ix2 p q) = ix2 0 q :=
  funext fun a => Fin.ext (by match a with | ⟨0, _⟩ => rfl | ⟨1, _⟩ => rfl)
theorem ix7_11_at (p : Fin 1024) (q : Fin 256) : Value.ix7_11 (ix2 p q) = ix2 p q :=
  funext fun a => Fin.ext (by match a with | ⟨0, _⟩ => rfl | ⟨1, _⟩ => rfl)
theorem ix7_12_at (p : Fin 1024) (q : Fin 256) : Value.ix7_12 (ix2 p q) = ix2 0 q :=
  funext fun a => Fin.ext (by match a with | ⟨0, _⟩ => rfl | ⟨1, _⟩ => rfl)
theorem ix7_13_at (p : Fin 1024) (q : Fin 256) : Value.ix7_13 (ix2 p q) = ix2 p q :=
  funext fun a => Fin.ext (by match a with | ⟨0, _⟩ => rfl | ⟨1, _⟩ => rfl)
theorem ix7_14_at (p : Fin 1024) (q : Fin 256) : Value.ix7_14 (ix2 p q) = ix2 0 q :=
  funext fun a => Fin.ext (by match a with | ⟨0, _⟩ => rfl | ⟨1, _⟩ => rfl)
theorem ix7_15_at (p : Fin 1024) (q : Fin 256) : Value.ix7_15 (ix2 p q) = ix2 p 0 :=
  funext fun a => Fin.ext (by match a with | ⟨0, _⟩ => rfl | ⟨1, _⟩ => rfl)
theorem ix8_0_at (p : Fin 1024) (q : Fin 256) : Value.ix8_0 (ix2 p q) = ix2 p q :=
  funext fun a => Fin.ext (by match a with | ⟨0, _⟩ => rfl | ⟨1, _⟩ => rfl)
theorem ix8_1_at (p : Fin 1024) (q : Fin 256) : Value.ix8_1 (ix2 p q) = ix2 p q :=
  funext fun a => Fin.ext (by match a with | ⟨0, _⟩ => rfl | ⟨1, _⟩ => rfl)
theorem ix8_2_at (p : Fin 1024) (q : Fin 256) : Value.ix8_2 (ix2 p q) = ix2 p q :=
  funext fun a => Fin.ext (by match a with | ⟨0, _⟩ => rfl | ⟨1, _⟩ => rfl)
theorem ix8_3_at (p : Fin 1024) (q : Fin 256) : Value.ix8_3 (ix2 p q) = ix2 p q :=
  funext fun a => Fin.ext (by match a with | ⟨0, _⟩ => rfl | ⟨1, _⟩ => rfl)
theorem ix8_4_at (p : Fin 1024) (q : Fin 256) : Value.ix8_4 (ix2 p q) = ix2 p q :=
  funext fun a => Fin.ext (by match a with | ⟨0, _⟩ => rfl | ⟨1, _⟩ => rfl)
theorem ix8_5_at (p : Fin 1024) (q : Fin 256) : Value.ix8_5 (ix2 p q) = ix2 0 q :=
  funext fun a => Fin.ext (by match a with | ⟨0, _⟩ => rfl | ⟨1, _⟩ => rfl)
theorem ix8_6_at (p : Fin 1024) (q : Fin 256) : Value.ix8_6 (ix2 p q) = ix2 p q :=
  funext fun a => Fin.ext (by match a with | ⟨0, _⟩ => rfl | ⟨1, _⟩ => rfl)
theorem ix8_7_at (p : Fin 1024) (q : Fin 256) : Value.ix8_7 (ix2 p q) = ix2 0 q :=
  funext fun a => Fin.ext (by match a with | ⟨0, _⟩ => rfl | ⟨1, _⟩ => rfl)
theorem ix8_8_at (p : Fin 1024) (q : Fin 256) : Value.ix8_8 (ix2 p q) = ix2 p q :=
  funext fun a => Fin.ext (by match a with | ⟨0, _⟩ => rfl | ⟨1, _⟩ => rfl)
theorem ix8_9_at (p : Fin 1024) (q : Fin 256) : Value.ix8_9 (ix2 p q) = ix2 0 q :=
  funext fun a => Fin.ext (by match a with | ⟨0, _⟩ => rfl | ⟨1, _⟩ => rfl)
theorem ix8_10_at (p : Fin 1024) (q : Fin 256) : Value.ix8_10 (ix2 p q) = ix2 p q :=
  funext fun a => Fin.ext (by match a with | ⟨0, _⟩ => rfl | ⟨1, _⟩ => rfl)
theorem ix8_11_at (p : Fin 1024) (q : Fin 256) : Value.ix8_11 (ix2 p q) = ix2 0 q :=
  funext fun a => Fin.ext (by match a with | ⟨0, _⟩ => rfl | ⟨1, _⟩ => rfl)
theorem ix8_12_at (p : Fin 1024) (q : Fin 256) : Value.ix8_12 (ix2 p q) = ix2 p q :=
  funext fun a => Fin.ext (by match a with | ⟨0, _⟩ => rfl | ⟨1, _⟩ => rfl)
theorem ix8_13_at (p : Fin 1024) (q : Fin 256) : Value.ix8_13 (ix2 p q) = ix2 0 q :=
  funext fun a => Fin.ext (by match a with | ⟨0, _⟩ => rfl | ⟨1, _⟩ => rfl)
theorem ix8_14_at (p : Fin 1024) (q : Fin 256) : Value.ix8_14 (ix2 p q) = ix2 p 0 :=
  funext fun a => Fin.ext (by match a with | ⟨0, _⟩ => rfl | ⟨1, _⟩ => rfl)
theorem ix8_15_at (p : Fin 1024) (q : Fin 256) : Value.ix8_15 (ix2 p q) = ix2 p q :=
  funext fun a => Fin.ext (by match a with | ⟨0, _⟩ => rfl | ⟨1, _⟩ => rfl)
theorem ix8_16_at (p : Fin 1024) (q : Fin 256) : Value.ix8_16 (ix2 p q) = ix2 p q :=
  funext fun a => Fin.ext (by match a with | ⟨0, _⟩ => rfl | ⟨1, _⟩ => rfl)
theorem ix10_0_at (p : Fin 1024) (q : Fin 256) : Value.ix10_0 (ix2 p q) = ix2 p q :=
  funext fun a => Fin.ext (by match a with | ⟨0, _⟩ => rfl | ⟨1, _⟩ => rfl)
theorem ix10_1_at (p : Fin 1024) (q : Fin 256) : Value.ix10_1 (ix2 p q) = ix2 0 q :=
  funext fun a => Fin.ext (by match a with | ⟨0, _⟩ => rfl | ⟨1, _⟩ => rfl)
theorem ix10_2_at (p : Fin 1024) (q : Fin 256) : Value.ix10_2 (ix2 p q) = ix2 p q :=
  funext fun a => Fin.ext (by match a with | ⟨0, _⟩ => rfl | ⟨1, _⟩ => rfl)
theorem ix10_3_at (p : Fin 1024) (q : Fin 256) : Value.ix10_3 (ix2 p q) = ix2 0 q :=
  funext fun a => Fin.ext (by match a with | ⟨0, _⟩ => rfl | ⟨1, _⟩ => rfl)
theorem ix10_4_at (p : Fin 1024) (q : Fin 256) : Value.ix10_4 (ix2 p q) = ix2 p q :=
  funext fun a => Fin.ext (by match a with | ⟨0, _⟩ => rfl | ⟨1, _⟩ => rfl)
theorem ix10_5_at (p : Fin 1024) (q : Fin 256) : Value.ix10_5 (ix2 p q) = ix2 0 q :=
  funext fun a => Fin.ext (by match a with | ⟨0, _⟩ => rfl | ⟨1, _⟩ => rfl)
theorem ix10_6_at (p : Fin 1024) (q : Fin 256) : Value.ix10_6 (ix2 p q) = ix2 p q :=
  funext fun a => Fin.ext (by match a with | ⟨0, _⟩ => rfl | ⟨1, _⟩ => rfl)
theorem ix10_7_at (p : Fin 1024) (q : Fin 256) : Value.ix10_7 (ix2 p q) = ix2 0 q :=
  funext fun a => Fin.ext (by match a with | ⟨0, _⟩ => rfl | ⟨1, _⟩ => rfl)
theorem ix10_8_at (p : Fin 1024) (q : Fin 256) : Value.ix10_8 (ix2 p q) = ix2 p q :=
  funext fun a => Fin.ext (by match a with | ⟨0, _⟩ => rfl | ⟨1, _⟩ => rfl)
theorem ix10_9_at (p : Fin 1024) (q : Fin 256) : Value.ix10_9 (ix2 p q) = ix2 0 q :=
  funext fun a => Fin.ext (by match a with | ⟨0, _⟩ => rfl | ⟨1, _⟩ => rfl)

/-! ## The cell update inside a block -/

/-- The decay rate at row p of the block and unit q. -/
def blockDecay (x1 : Vec Ideal S1024x256 .f32) (x4 : Vec Ideal S7x256x256 .f32) (x5 : Vec Ideal S7x256 .f32)
    (p : Fin 1024) (q : Fin 256) : EReal := softplus (blockLogit x1 x4 x5 6 p q)

/-- The decayed cell state at row p of the block and unit q, from the blocks of Δt (x0), c (x2) and c̄ (x3). -/
def blockCell (x0 : Vec Ideal S1024x1 .f32) (x1 x2 x3 : Vec Ideal S1024x256 .f32) (x4 : Vec Ideal S7x256x256 .f32)
    (x5 : Vec Ideal S7x256 .f32) (p : Fin 1024) (q : Fin 256) : EReal :=
  x3 (ix2 p q) + (x2 (ix2 p q) - x3 (ix2 p q)) * Ideal.exp (-(blockDecay x1 x4 x5 p q) * x0 (ix2 p 0))

section
variable (x0 : Vec Ideal S1024x1 .f32) (x1 x2 x3 : Vec Ideal S1024x256 .f32) (x4 : Vec Ideal S7x256x256 .f32)
  (x5 : Vec Ideal S7x256 .f32) (p : Fin 1024) (q : Fin 256)

/-- Gate 2's product as the body's first payload leaves it. -/
theorem dot2_at : (k0_pay5 x1 (View.ld x4 r0_6)) (ix2 p q) = ∑ k : Fin 256, x1 (ix2 p k) * x4 (ix3 2 q k) :=
  dotSlice x1 x4 2 (k0_pay1 x1) (fun _ => rfl) (View.ld x4 r0_6) (ldW2 x4) p q

/-- Gate 6's product. -/
theorem dot6_at (X : FVec Ideal S1024x256 .bf16) (hX : ∀ i, X i = x1 i) :
    (k0_pay11 X (View.ld x4 r0_14)) (ix2 p q) = ∑ k : Fin 256, x1 (ix2 p k) * x4 (ix3 6 q k) :=
  dotSlice x1 x4 6 X hX (View.ld x4 r0_14) (ldW6 x4) p q

/-- What the body leaves in output window 6's block: the output gate. -/
theorem out6_apply : out0_6 x0 x1 x2 x3 x4 x5 (ix2 p q) = Ideal.logistic (blockLogit x1 x4 x5 2 p q) := by
  unfold out0_6
  rw [Value.canon6_eq]
  unfold Value.E6
  simp only [View.ld_unit_zero (S := S1024x256) origin2]
  rw [ix6_0_at, ix6_1_at, dot2_at, ldb2]
  rfl

end

section
variable (x0 : Vec Ideal S1024x1 .f32) (x1 x2 x3 : Vec Ideal S1024x256 .f32) (x4 : Vec Ideal S7x256x256 .f32)
  (x5 : Vec Ideal S7x256 .f32) (p : Fin 1024) (q : Fin 256)

/-- Gate 0's payload: σ of its logit. -/
theorem sigma0_at : (k0_pay3 x1 (View.ld x4 r0_2) (View.ld x5 r0_3)) (ix2 p q) = Ideal.logistic (blockLogit x1 x4 x5 0 p q) :=
  congrArg Ideal.logistic (logitSlice x1 x4 x5 0 (k0_pay1 x1) (fun _ => rfl) (View.ld x4 r0_2) (ldW0 x4) (View.ld x5 r0_3) (ldb0 x5) p q)

/-- Gate 1's payload: σ of its logit. -/
theorem sigma1_at : (k0_pay4 x1 (View.ld x4 r0_4) (View.ld x5 r0_5)) (ix2 p q) = Ideal.logistic (blockLogit x1 x4 x5 1 p q) :=
  congrArg Ideal.logistic (logitSlice x1 x4 x5 1 (k0_pay1 x1) (fun _ => rfl) (View.ld x4 r0_4) (ldW1 x4) (View.ld x5 r0_5) (ldb1 x5) p q)

/-- Gate 3's payload: σ of its logit. -/
theorem sigma3_at (X : FVec Ideal S1024x256 .bf16) (hX : ∀ i, X i = x1 i) :
    (k0_pay8 X (View.ld x4 r0_8) (View.ld x5 r0_9)) (ix2 p q) = Ideal.logistic (blockLogit x1 x4 x5 3 p q) :=
  congrArg Ideal.logistic (logitSlice x1 x4 x5 3 X hX (View.ld x4 r0_8) (ldW3 x4) (View.ld x5 r0_9) (ldb3 x5) p q)

/-- Gate 4's payload: σ of its logit. -/
theorem sigma4_at (X : FVec Ideal S1024x256 .bf16) (hX : ∀ i, X i = x1 i) :
    (k0_pay9 X (View.ld x4 r0_10) (View.ld x5 r0_11)) (ix2 p q) = Ideal.logistic (blockLogit x1 x4 x5 4 p q) :=
  congrArg Ideal.logistic (logitSlice x1 x4 x5 4 X hX (View.ld x4 r0_10) (ldW4 x4) (View.ld x5 r0_11) (ldb4 x5) p q)

/-- Gate 5's payload: tanh of its logit. -/
theorem tanh5_at (X : FVec Ideal S1024x256 .bf16) (hX : ∀ i, X i = x1 i) :
    (k0_pay10 X (View.ld x4 r0_12) (View.ld x5 r0_13)) (ix2 p q) = Ideal.tanh (blockLogit x1 x4 x5 5 p q) :=
  congrArg Ideal.tanh (logitSlice x1 x4 x5 5 X hX (View.ld x4 r0_12) (ldW5 x4) (View.ld x5 r0_13) (ldb5 x5) p q)

/-- A load of a whole [1024, 256] block reads the block. -/
theorem ld_whole (x : Vec Ideal S1024x256 .f32) (i : S1024x256.Idx) : View.ld x r0_0 i = x i :=
  congrFun (View.ld_unit_zero (S := S1024x256) origin2 _ x) i

/-- A load of the whole [1024, 1] column reads the column. -/
theorem ld_col (x : Vec Ideal S1024x1 .f32) (i : S1024x1.Idx) : View.ld x r0_1 i = x i :=
  congrFun (View.ld_unit_zero (S := S1024x1) origin2 _ x) i

/-- The zero literal of the body is the number zero. -/
theorem zero_word : Scalar.ofBits (F := Ideal) .f32 0x00000000#32 = (0 : EReal) := Ideal.ofBits_zero_f32

/-- What the body leaves in output window 10's block: the decay rate. -/
theorem out10_apply : out0_10 x0 x1 x2 x3 x4 x5 (ix2 p q) = blockDecay x1 x4 x5 p q := by
  unfold out0_10
  rw [Value.canon10_eq]
  unfold Value.E10
  simp only [View.ld_unit_zero (S := S1024x256) origin2]
  rw [ix10_0_at, ix10_1_at, ix10_2_at, ix10_3_at, ix10_4_at, ix10_5_at, ix10_6_at, ix10_7_at, ix10_8_at, ix10_9_at]
  rw [dot6_at x1 x4 p q (truncf .bf16 x1 bitsLt_bf16_f32) (fun _ => rfl), ldb6, softplus_body]
  rfl

/-- What the body leaves in output window 7's block: the output gate times tanh of the decayed cell state. -/
theorem out7_apply : out0_7 x0 x1 x2 x3 x4 x5 (ix2 p q)
    = Ideal.logistic (blockLogit x1 x4 x5 2 p q) * Ideal.tanh (blockCell x0 x1 x2 x3 x4 x5 p q) := by
  unfold out0_7
  rw [Value.canon7_eq]
  unfold Value.E7
  simp only [View.ld_unit_zero (S := S1024x256) origin2, View.ld_unit_zero (S := S1024x1) origin2]
  rw [ix7_0_at, ix7_1_at, ix7_2_at, ix7_3_at, ix7_4_at, ix7_5_at, ix7_6_at, ix7_7_at, ix7_8_at, ix7_9_at, ix7_10_at, ix7_11_at, ix7_12_at, ix7_13_at, ix7_14_at, ix7_15_at]
  rw [dot2_at, dot6_at x1 x4 p q (truncf .bf16 x1 bitsLt_bf16_f32) (fun _ => rfl), ldb2, ldb6, softplus_body, zero_word,
    ld_whole x3, ld_whole x2, ld_col x0]
  unfold blockCell blockDecay
  simp only [Ideal.subf_def, zero_sub]
  rfl

/-- What the body leaves in output window 8's block: f · c(t) + i · z. -/
theorem out8_apply : out0_8 x0 x1 x2 x3 x4 x5 (ix2 p q)
    = Ideal.logistic (blockLogit x1 x4 x5 1 p q) * blockCell x0 x1 x2 x3 x4 x5 p q
      + Ideal.logistic (blockLogit x1 x4 x5 0 p q) * Ideal.tanh (blockLogit x1 x4 x5 5 p q) := by
  unfold out0_8
  rw [Value.canon8_eq]
  unfold Value.E8
  simp only [View.ld_unit_zero (S := S1024x256) origin2, View.ld_unit_zero (S := S1024x1) origin2]
  rw [ix8_0_at, ix8_1_at, ix8_2_at, ix8_3_at, ix8_4_at, ix8_5_at, ix8_6_at, ix8_7_at, ix8_8_at, ix8_9_at, ix8_10_at, ix8_11_at, ix8_12_at, ix8_13_at, ix8_14_at, ix8_15_at, ix8_16_at]
  rw [sigma1_at, sigma0_at, tanh5_at x1 x4 x5 p q (truncf .bf16 x1 bitsLt_bf16_f32) (fun _ => rfl),
    dot6_at x1 x4 p q (truncf .bf16 x1 bitsLt_bf16_f32) (fun _ => rfl), ldb6, softplus_body, zero_word,
    ld_whole x3, ld_whole x2, ld_col x0]
  unfold blockCell blockDecay
  simp only [Ideal.subf_def, zero_sub]
  rfl

/-- What the body leaves in output window 9's block: f̄ · c̄ + ī · z. The payload is pointwise in four whole payloads. -/
theorem out9_apply : out0_9 x0 x1 x2 x3 x4 x5 (ix2 p q)
    = Ideal.logistic (blockLogit x1 x4 x5 4 p q) * x3 (ix2 p q)
      + Ideal.logistic (blockLogit x1 x4 x5 3 p q) * Ideal.tanh (blockLogit x1 x4 x5 5 p q) := by
  unfold out0_9
  rw [View.canon_unit_zero origin2]
  simp only [View.ld_unit_zero (S := S1024x256) origin2]
  show FloatOps.addf (F := Ideal) (φ := .f32)
      (FloatOps.mulf ((k0_pay9 (k0_pay1 x1) (View.ld x4 r0_10) (View.ld x5 r0_11)) (ix2 p q)) (x3 (ix2 p q)))
      (FloatOps.mulf ((k0_pay8 (k0_pay1 x1) (View.ld x4 r0_8) (View.ld x5 r0_9)) (ix2 p q))
        ((k0_pay10 (k0_pay1 x1) (View.ld x4 r0_12) (View.ld x5 r0_13)) (ix2 p q))) = _
  rw [sigma4_at x1 x4 x5 p q (k0_pay1 x1) (fun _ => rfl), sigma3_at x1 x4 x5 p q (k0_pay1 x1) (fun _ => rfl),
    tanh5_at x1 x4 x5 p q (k0_pay1 x1) (fun _ => rfl)]
  rfl

end

end Cert.CtLstm.Kernel

end
-- ==== Proof.KernelArray.lean ====
/-
  From blocks to arrays. Grid point t stages rows 1024·t … 1024·t + 1023 of Δt (as a column), h, c and c̄, and all of W and
  b, and writes back the same rows of the five results; the 64 points' blocks tile the 65536 rows. So a block-level logit is
  the array-level logit at row 1024·t + p, and each result array after the run is the specification's function of the
  argument arrays. The Δt column the region finds is the argument vector reshaped by the host to [65536, 1]: its entry
  (r, 0) is the vector's entry r.
-/
import proofs.«162727_j27230092657708_1_alg».proof.Proof.KernelPoint
import Idealize.ShloMosaic.Lib.StableHlo.Run

noncomputable section

open scoped BigOperators

namespace Cert.CtLstm.Kernel

open Cert.KernelIdeal Cert.KernelIdeal.Gen Idealize.ShloMosaic Idealize.ShloMosaic.ValueIdx Idealize.ShloMosaic.TcCoe
  Idealize.SL.Sem Cert.CtLstm
open Idealize.ShloMosaic.Pipeline (Dat)

variable (m : (ℓ : Loc nD τ sig) → Buf (Elt Ideal) ℓ) (ρ : Dev nD → PrngReg)

/-! ## The windows' index maps, decided over the 64 grid points -/

theorem idx_row0 : ∀ t : Fin cfg0.N, win0_0.index t (0 : Fin 2) = t.val ∧ win0_0.index t (1 : Fin 2) = 0 :=
  (by decide +kernel : ∀ t : Fin grid0.N, _)
theorem idx_row1 : ∀ t : Fin cfg0.N, win0_1.index t (0 : Fin 2) = t.val ∧ win0_1.index t (1 : Fin 2) = 0 :=
  (by decide +kernel : ∀ t : Fin grid0.N, _)
theorem idx_row2 : ∀ t : Fin cfg0.N, win0_2.index t (0 : Fin 2) = t.val ∧ win0_2.index t (1 : Fin 2) = 0 :=
  (by decide +kernel : ∀ t : Fin grid0.N, _)
theorem idx_row3 : ∀ t : Fin cfg0.N, win0_3.index t (0 : Fin 2) = t.val ∧ win0_3.index t (1 : Fin 2) = 0 :=
  (by decide +kernel : ∀ t : Fin grid0.N, _)
theorem idx_row6 : ∀ t : Fin cfg0.N, win0_6.index t (0 : Fin 2) = t.val ∧ win0_6.index t (1 : Fin 2) = 0 :=
  (by decide +kernel : ∀ t : Fin grid0.N, _)
theorem idx_row7 : ∀ t : Fin cfg0.N, win0_7.index t (0 : Fin 2) = t.val ∧ win0_7.index t (1 : Fin 2) = 0 :=
  (by decide +kernel : ∀ t : Fin grid0.N, _)
theorem idx_row8 : ∀ t : Fin cfg0.N, win0_8.index t (0 : Fin 2) = t.val ∧ win0_8.index t (1 : Fin 2) = 0 :=
  (by decide +kernel : ∀ t : Fin grid0.N, _)
theorem idx_row9 : ∀ t : Fin cfg0.N, win0_9.index t (0 : Fin 2) = t.val ∧ win0_9.index t (1 : Fin 2) = 0 :=
  (by decide +kernel : ∀ t : Fin grid0.N, _)
theorem idx_row10 : ∀ t : Fin cfg0.N, win0_10.index t (0 : Fin 2) = t.val ∧ win0_10.index t (1 : Fin 2) = 0 :=
  (by decide +kernel : ∀ t : Fin grid0.N, _)
theorem idx_W : ∀ t : Fin cfg0.N, win0_4.index t (0 : Fin 3) = 0 ∧ win0_4.index t (1 : Fin 3) = 0 ∧ win0_4.index t (2 : Fin 3) = 0 :=
  (by decide +kernel : ∀ t : Fin grid0.N, _)
theorem idx_b : ∀ t : Fin cfg0.N, win0_5.index t (0 : Fin 2) = 0 ∧ win0_5.index t (1 : Fin 2) = 0 :=
  (by decide +kernel : ∀ t : Fin grid0.N, _)

/-! ## The blocks and the arrays, at their literal types -/

abbrev dtBlk (c : Dev nD) (t : Fin cfg0.N) : Vec Ideal S1024x1 .f32 := iblk m c 0 t
abbrev hBlk (c : Dev nD) (t : Fin cfg0.N) : Vec Ideal S1024x256 .f32 := iblk m c 1 t
abbrev cBlk (c : Dev nD) (t : Fin cfg0.N) : Vec Ideal S1024x256 .f32 := iblk m c 2 t
abbrev cbarBlk (c : Dev nD) (t : Fin cfg0.N) : Vec Ideal S1024x256 .f32 := iblk m c 3 t
abbrev wBlk (c : Dev nD) (t : Fin cfg0.N) : Vec Ideal S7x256x256 .f32 := iblk m c 4 t
abbrev bBlk (c : Dev nD) (t : Fin cfg0.N) : Vec Ideal S7x256 .f32 := iblk m c 5 t

abbrev dtVec (c : Dev nD) : Vec Ideal S65536 .f32 := m ((c : Thread nD τ).loc main_arg0)
abbrev dtCol (c : Dev nD) : Vec Ideal S65536x1 .f32 := V m c main_v0
abbrev hArr (c : Dev nD) : Vec Ideal S65536x256 .f32 := V m c main_arg1
abbrev cArr (c : Dev nD) : Vec Ideal S65536x256 .f32 := V m c main_arg2
abbrev cbarArr (c : Dev nD) : Vec Ideal S65536x256 .f32 := V m c main_arg3
abbrev wArr (c : Dev nD) : Vec Ideal S7x256x256 .f32 := V m c main_arg4
abbrev bArr (c : Dev nD) : Vec Ideal S7x256 .f32 := V m c main_arg5

/-- Row p of point t's block is row 1024·t + p of the array. -/
def row (t : Fin cfg0.N) (p : Fin 1024) : Fin 65536 :=
  ⟨t.val * 1024 + p.val, by have ht : t.val < 64 := N_0 ▸ t.isLt; have hp : p.val < 1024 := p.isLt; omega⟩

theorem row_val (t : Fin cfg0.N) (p : Fin 1024) : (row t p).val = t.val * 1024 + p.val := rfl

/-! ## The input blocks, read off the arrays -/

theorem hBlk_apply (c : Dev nD) (t : Fin cfg0.N) (p : Fin 1024) (q : Fin 256) :
    hBlk m c t (ix2 p q) = hArr m c (ix2 (row t p) q) := by
  obtain ⟨e0, e1⟩ := idx_row1 t
  have hp : p.val < 1024 := p.isLt
  have hq : q.val < 256 := q.isLt
  show V m c main_arg1 (((cfg0.win 1).blk t).view.emb (ix2 p q)) = V m c main_arg1 (ix2 (row t p) q)
  refine congrArg (V m c main_arg1) (funext fun a => Fin.ext ?_)
  match a with
  | ⟨0, _⟩ => show win0_1.index t (0 : Fin 2) * 1024 + 1 * p.val = t.val * 1024 + p.val; omega
  | ⟨1, _⟩ => show win0_1.index t (1 : Fin 2) * 256 + 1 * q.val = q.val; omega

theorem cBlk_apply (c : Dev nD) (t : Fin cfg0.N) (p : Fin 1024) (q : Fin 256) :
    cBlk m c t (ix2 p q) = cArr m c (ix2 (row t p) q) := by
  obtain ⟨e0, e1⟩ := idx_row2 t
  have hp : p.val < 1024 := p.isLt
  have hq : q.val < 256 := q.isLt
  show V m c main_arg2 (((cfg0.win 2).blk t).view.emb (ix2 p q)) = V m c main_arg2 (ix2 (row t p) q)
  refine congrArg (V m c main_arg2) (funext fun a => Fin.ext ?_)
  match a with
  | ⟨0, _⟩ => show win0_2.index t (0 : Fin 2) * 1024 + 1 * p.val = t.val * 1024 + p.val; omega
  | ⟨1, _⟩ => show win0_2.index t (1 : Fin 2) * 256 + 1 * q.val = q.val; omega

theorem cbarBlk_apply (c : Dev nD) (t : Fin cfg0.N) (p : Fin 1024) (q : Fin 256) :
    cbarBlk m c t (ix2 p q) = cbarArr m c (ix2 (row t p) q) := by
  obtain ⟨e0, e1⟩ := idx_row3 t
  have hp : p.val < 1024 := p.isLt
  have hq : q.val < 256 := q.isLt
  show V m c main_arg3 (((cfg0.win 3).blk t).view.emb (ix2 p q)) = V m c main_arg3 (ix2 (row t p) q)
  refine congrArg (V m c main_arg3) (funext fun a => Fin.ext ?_)
  match a with
  | ⟨0, _⟩ => show win0_3.index t (0 : Fin 2) * 1024 + 1 * p.val = t.val * 1024 + p.val; omega
  | ⟨1, _⟩ => show win0_3.index t (1 : Fin 2) * 256 + 1 * q.val = q.val; omega

theorem dtBlk_apply (c : Dev nD) (t : Fin cfg0.N) (p : Fin 1024) :
    dtBlk m c t (ix2 p 0) = dtCol m c (ix2 (row t p) 0) := by
  obtain ⟨e0, e1⟩ := idx_row0 t
  have hp : p.val < 1024 := p.isLt
  show V m c main_v0 (((cfg0.win 0).blk t).view.emb (ix2 p 0)) = V m c main_v0 (ix2 (row t p) 0)
  refine congrArg (V m c main_v0) (funext fun a => Fin.ext ?_)
  match a with
  | ⟨0, _⟩ => show win0_0.index t (0 : Fin 2) * 1024 + 1 * p.val = t.val * 1024 + p.val; omega
  | ⟨1, _⟩ => show win0_0.index t (1 : Fin 2) * 1 + 1 * 0 = 0; omega

theorem wBlk_apply (c : Dev nD) (t : Fin cfg0.N) (i : S7x256x256.Idx) : wBlk m c t i = wArr m c i := by
  obtain ⟨e0, e1, e2⟩ := idx_W t
  show V m c main_arg4 (((cfg0.win 4).blk t).view.emb i) = V m c main_arg4 i
  refine congrArg (V m c main_arg4) (funext fun a => Fin.ext ?_)
  match a with
  | ⟨0, _⟩ => show win0_4.index t (0 : Fin 3) * 7 + 1 * (i 0).val = (i 0).val; omega
  | ⟨1, _⟩ => show win0_4.index t (1 : Fin 3) * 256 + 1 * (i 1).val = (i 1).val; omega
  | ⟨2, _⟩ => show win0_4.index t (2 : Fin 3) * 256 + 1 * (i 2).val = (i 2).val; omega

theorem bBlk_apply (c : Dev nD) (t : Fin cfg0.N) (i : S7x256.Idx) : bBlk m c t i = bArr m c i := by
  obtain ⟨e0, e1⟩ := idx_b t
  show V m c main_arg5 (((cfg0.win 5).blk t).view.emb i) = V m c main_arg5 i
  refine congrArg (V m c main_arg5) (funext fun a => Fin.ext ?_)
  match a with
  | ⟨0, _⟩ => show win0_5.index t (0 : Fin 2) * 7 + 1 * (i 0).val = (i 0).val; omega
  | ⟨1, _⟩ => show win0_5.index t (1 : Fin 2) * 256 + 1 * (i 1).val = (i 1).val; omega

/-- The Δt column the region finds, at (r, 0), is entry r of the argument vector: the host's reshape. -/
theorem dtCol_apply (c : Dev nD) (r : Fin 65536) : dtCol m c (ix2 r 0) = dtVec m c (ix1 r) := by
  have e : (V m c main_v0 : S65536x1.Idx → EReal) = shapeCast S65536x1 (dtVec m c) shapeCasts_S65536_S65536x1 := by
    dsimp only [Gen.V, Gen.hostOps0]; after_results; rfl
  show (V m c main_v0 : S65536x1.Idx → EReal) (ix2 r 0) = _
  rw [e]
  exact shapeCast_apply _ _ (ix2 r 0) (ix1 r) (by
    rw [Shape.rowMajor_val_one, Shape.rowMajor_val_two]; show r.val = r.val * 1 + 0; omega)

/-! ## Block-level quantities are the array-level ones at row 1024·t + p -/

theorem blockLogit_eq (c : Dev nD) (t : Fin cfg0.N) (g : Fin 7) (p : Fin 1024) (q : Fin 256) :
    blockLogit (hBlk m c t) (wBlk m c t) (bBlk m c t) g p q = logit (hArr m c) (wArr m c) (bArr m c) g (row t p) q := by
  unfold blockLogit logit
  rw [bBlk_apply]
  exact congrArg (· + bArr m c (ix2 g q)) (Finset.sum_congr rfl fun k _ => by rw [hBlk_apply, wBlk_apply])

theorem blockCell_eq (c : Dev nD) (t : Fin cfg0.N) (p : Fin 1024) (q : Fin 256) :
    blockCell (dtBlk m c t) (hBlk m c t) (cBlk m c t) (cbarBlk m c t) (wBlk m c t) (bBlk m c t) p q
      = cellAt (dtVec m c) (hArr m c) (cArr m c) (cbarArr m c) (wArr m c) (bArr m c) (row t p) q := by
  unfold blockCell cellAt blockDecay decay
  rw [blockLogit_eq, cBlk_apply, cbarBlk_apply, dtBlk_apply, dtCol_apply]

/-! ## Result array 0 (output window 6) -/

/-- Row p, unit q of point t's block of the result is row 1024·t + p, unit q of the array. -/
theorem emb_out6 (t : Fin cfg0.N) (p : Fin 1024) (q : Fin 256) :
    ((cfg0.win 6).blk t).view.emb (ix2 p q) = ix2 (row t p) q := by
  obtain ⟨e0, e1⟩ := idx_row6 t
  have hp : p.val < 1024 := p.isLt
  have hq : q.val < 256 := q.isLt
  funext a; apply Fin.ext
  match a with
  | ⟨0, _⟩ => show win0_6.index t (0 : Fin 2) * 1024 + 1 * p.val = t.val * 1024 + p.val; omega
  | ⟨1, _⟩ => show win0_6.index t (1 : Fin 2) * 256 + 1 * q.val = q.val; omega

/-- What point t writes back is block t of the specification's array. -/
theorem flushed6_eq (c : Dev nD) (t : Fin cfg0.N) :
    (dats m 0 c).flushed 6 t = ((cfg0.win 6).blk t).view.read (Elt Ideal) (outGate (hArr m c) (wArr m c) (bArr m c)) := by
  rw [Value.flushed6]
  funext y
  obtain ⟨p, q, rfl⟩ : ∃ (p : Fin 1024) (q : Fin 256), y = ix2 p q := ⟨y 0, y 1, eq_ix2 y⟩
  show out0_6 (dtBlk m c t) (hBlk m c t) (cBlk m c t) (cbarBlk m c t) (wBlk m c t) (bBlk m c t) (ix2 p q)
    = outGate (hArr m c) (wArr m c) (bArr m c) (((cfg0.win 6).blk t).view.emb (ix2 p q))
  rw [emb_out6]
  refine (out6_apply (dtBlk m c t) (hBlk m c t) (cBlk m c t) (cbarBlk m c t) (wBlk m c t) (bBlk m c t) p q).trans ?_
  unfold outGate
  rw [blockLogit_eq]

/-- An index of the array is in point t's block iff each coordinate is in the block's range on its axis. -/
theorem mem_blk6 (t : Fin cfg0.N) (i : S65536x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v1_0).slice (win0_6.rect t)).set ↔ _
  rw [View.set_slice_whole, Rect.mem_set_unit]
  exact Iff.rfl

/-- Every index is in some point's block: row r is in the block of point r / 1024. -/
theorem cover6 (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_6 _, ?_⟩
  rw [mem_blk6]
  obtain ⟨e0, e1⟩ := idx_row6 ⟨(i 0).val / 1024, by rw [hN]; omega⟩
  intro a
  match a with
  | ⟨0, _⟩ =>
    show win0_6.index ⟨(i 0).val / 1024, _⟩ (0 : Fin 2) * 1024 ≤ (i 0).val ∧ (i 0).val < win0_6.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, _⟩ (1 : Fin 2) * 256 ≤ (i 1).val ∧ (i 1).val < win0_6.index ⟨(i 0).val / 1024, _⟩ (1 : Fin 2) * 256 + 256
    rw [e1]; omega

/-- The array after the run is the specification's function of the argument arrays. -/
theorem final6 (c : Dev nD) : (dats m 0 c).arrAt 6 cfg0.N = outGate (m ((c : Thread nD τ).loc main_arg1)) (m ((c : Thread nD τ).loc main_arg4)) (m ((c : Thread nD τ).loc main_arg5)) := by
  rw [(dats m 0 c).arrAt_eq_of_cover 6 (outGate (hArr m c) (wArr m c) (bArr m c)) (fun t _ => flushed6_eq m c t) cover6]
  show outGate (V m c main_arg1) (V m c main_arg4) (V m c main_arg5) = _
  rw [V_main_arg1, V_main_arg4, V_main_arg5]

/-! ## Result array 1 (output window 7) -/

/-- Row p, unit q of point t's block of the result is row 1024·t + p, unit q of the array. -/
theorem emb_out7 (t : Fin cfg0.N) (p : Fin 1024) (q : Fin 256) :
    ((cfg0.win 7).blk t).view.emb (ix2 p q) = ix2 (row t p) q := by
  obtain ⟨e0, e1⟩ := idx_row7 t
  have hp : p.val < 1024 := p.isLt
  have hq : q.val < 256 := q.isLt
  funext a; apply Fin.ext
  match a with
  | ⟨0, _⟩ => show win0_7.index t (0 : Fin 2) * 1024 + 1 * p.val = t.val * 1024 + p.val; omega
  | ⟨1, _⟩ => show win0_7.index t (1 : Fin 2) * 256 + 1 * q.val = q.val; omega

/-- What point t writes back is block t of the specification's array. -/
theorem flushed7_eq (c : Dev nD) (t : Fin cfg0.N) :
    (dats m 0 c).flushed 7 t = ((cfg0.win 7).blk t).view.read (Elt Ideal) (hiddenNew (dtVec m c) (hArr m c) (cArr m c) (cbarArr m c) (wArr m c) (bArr m c)) := by
  rw [Value.flushed7]
  funext y
  obtain ⟨p, q, rfl⟩ : ∃ (p : Fin 1024) (q : Fin 256), y = ix2 p q := ⟨y 0, y 1, eq_ix2 y⟩
  show out0_7 (dtBlk m c t) (hBlk m c t) (cBlk m c t) (cbarBlk m c t) (wBlk m c t) (bBlk m c t) (ix2 p q)
    = hiddenNew (dtVec m c) (hArr m c) (cArr m c) (cbarArr m c) (wArr m c) (bArr m c) (((cfg0.win 7).blk t).view.emb (ix2 p q))
  rw [emb_out7]
  refine (out7_apply (dtBlk m c t) (hBlk m c t) (cBlk m c t) (cbarBlk m c t) (wBlk m c t) (bBlk m c t) p q).trans ?_
  unfold hiddenNew
  rw [blockLogit_eq, blockCell_eq]

/-- An index of the array is in point t's block iff each coordinate is in the block's range on its axis. -/
theorem mem_blk7 (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v1_1).slice (win0_7.rect t)).set ↔ _
  rw [View.set_slice_whole, Rect.mem_set_unit]
  exact Iff.rfl

/-- Every index is in some point's block: row r is in the block of point r / 1024. -/
theorem cover7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_7 _, ?_⟩
  rw [mem_blk7]
  obtain ⟨e0, e1⟩ := idx_row7 ⟨(i 0).val / 1024, by rw [hN]; omega⟩
  intro a
  match a with
  | ⟨0, _⟩ =>
    show win0_7.index ⟨(i 0).val / 1024, _⟩ (0 : Fin 2) * 1024 ≤ (i 0).val ∧ (i 0).val < win0_7.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, _⟩ (1 : Fin 2) * 256 ≤ (i 1).val ∧ (i 1).val < win0_7.index ⟨(i 0).val / 1024, _⟩ (1 : Fin 2) * 256 + 256
    rw [e1]; omega

/-- The array after the run is the specification's function of the argument arrays. -/
theorem final7 (c : Dev nD) : (dats m 0 c).arrAt 7 cfg0.N = hiddenNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [(dats m 0 c).arrAt_eq_of_cover 7 (hiddenNew (dtVec m c) (hArr m c) (cArr m c) (cbarArr m c) (wArr m c) (bArr m c)) (fun t _ => flushed7_eq m c t) cover7]
  show hiddenNew (m ((c : Thread nD τ).loc main_arg0)) (V m c main_arg1) (V m c main_arg2) (V m c main_arg3) (V m c main_arg4) (V m c main_arg5) = _
  rw [V_main_arg1, V_main_arg2, V_main_arg3, V_main_arg4, V_main_arg5]

/-! ## Result array 2 (output window 8) -/

/-- Row p, unit q of point t's block of the result is row 1024·t + p, unit q of the array. -/
theorem emb_out8 (t : Fin cfg0.N) (p : Fin 1024) (q : Fin 256) :
    ((cfg0.win 8).blk t).view.emb (ix2 p q) = ix2 (row t p) q := by
  obtain ⟨e0, e1⟩ := idx_row8 t
  have hp : p.val < 1024 := p.isLt
  have hq : q.val < 256 := q.isLt
  funext a; apply Fin.ext
  match a with
  | ⟨0, _⟩ => show win0_8.index t (0 : Fin 2) * 1024 + 1 * p.val = t.val * 1024 + p.val; omega
  | ⟨1, _⟩ => show win0_8.index t (1 : Fin 2) * 256 + 1 * q.val = q.val; omega

/-- What point t writes back is block t of the specification's array. -/
theorem flushed8_eq (c : Dev nD) (t : Fin cfg0.N) :
    (dats m 0 c).flushed 8 t = ((cfg0.win 8).blk t).view.read (Elt Ideal) (cellNew (dtVec m c) (hArr m c) (cArr m c) (cbarArr m c) (wArr m c) (bArr m c)) := by
  rw [Value.flushed8]
  funext y
  obtain ⟨p, q, rfl⟩ : ∃ (p : Fin 1024) (q : Fin 256), y = ix2 p q := ⟨y 0, y 1, eq_ix2 y⟩
  show out0_8 (dtBlk m c t) (hBlk m c t) (cBlk m c t) (cbarBlk m c t) (wBlk m c t) (bBlk m c t) (ix2 p q)
    = cellNew (dtVec m c) (hArr m c) (cArr m c) (cbarArr m c) (wArr m c) (bArr m c) (((cfg0.win 8).blk t).view.emb (ix2 p q))
  rw [emb_out8]
  refine (out8_apply (dtBlk m c t) (hBlk m c t) (cBlk m c t) (cbarBlk m c t) (wBlk m c t) (bBlk m c t) p q).trans ?_
  unfold cellNew
  rw [blockLogit_eq, blockLogit_eq, blockLogit_eq, blockCell_eq]

/-- An index of the array is in point t's block iff each coordinate is in the block's range on its axis. -/
theorem mem_blk8 (t : Fin cfg0.N) (i : S65536x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v1_2).slice (win0_8.rect t)).set ↔ _
  rw [View.set_slice_whole, Rect.mem_set_unit]
  exact Iff.rfl

/-- Every index is in some point's block: row r is in the block of point r / 1024. -/
theorem cover8 (i : S65536x256.Idx) :
    ∃ t : Fin cfg0.N, (cfg0.win 8).flush t = true ∧ i ∈ ((cfg0.win 8).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_8 _, ?_⟩
  rw [mem_blk8]
  obtain ⟨e0, e1⟩ := idx_row8 ⟨(i 0).val / 1024, by rw [hN]; omega⟩
  intro a
  match a with
  | ⟨0, _⟩ =>
    show win0_8.index ⟨(i 0).val / 1024, _⟩ (0 : Fin 2) * 1024 ≤ (i 0).val ∧ (i 0).val < win0_8.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_8.index ⟨(i 0).val / 1024, _⟩ (1 : Fin 2) * 256 ≤ (i 1).val ∧ (i 1).val < win0_8.index ⟨(i 0).val / 1024, _⟩ (1 : Fin 2) * 256 + 256
    rw [e1]; omega

/-- The array after the run is the specification's function of the argument arrays. -/
theorem final8 (c : Dev nD) : (dats m 0 c).arrAt 8 cfg0.N = cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [(dats m 0 c).arrAt_eq_of_cover 8 (cellNew (dtVec m c) (hArr m c) (cArr m c) (cbarArr m c) (wArr m c) (bArr m c)) (fun t _ => flushed8_eq m c t) cover8]
  show cellNew (m ((c : Thread nD τ).loc main_arg0)) (V m c main_arg1) (V m c main_arg2) (V m c main_arg3) (V m c main_arg4) (V m c main_arg5) = _
  rw [V_main_arg1, V_main_arg2, V_main_arg3, V_main_arg4, V_main_arg5]

/-! ## Result array 3 (output window 9) -/

/-- Row p, unit q of point t's block of the result is row 1024·t + p, unit q of the array. -/
theorem emb_out9 (t : Fin cfg0.N) (p : Fin 1024) (q : Fin 256) :
    ((cfg0.win 9).blk t).view.emb (ix2 p q) = ix2 (row t p) q := by
  obtain ⟨e0, e1⟩ := idx_row9 t
  have hp : p.val < 1024 := p.isLt
  have hq : q.val < 256 := q.isLt
  funext a; apply Fin.ext
  match a with
  | ⟨0, _⟩ => show win0_9.index t (0 : Fin 2) * 1024 + 1 * p.val = t.val * 1024 + p.val; omega
  | ⟨1, _⟩ => show win0_9.index t (1 : Fin 2) * 256 + 1 * q.val = q.val; omega

/-- What point t writes back is block t of the specification's array. -/
theorem flushed9_eq (c : Dev nD) (t : Fin cfg0.N) :
    (dats m 0 c).flushed 9 t = ((cfg0.win 9).blk t).view.read (Elt Ideal) (targetNew (hArr m c) (cbarArr m c) (wArr m c) (bArr m c)) := by
  rw [Value.flushed9]
  funext y
  obtain ⟨p, q, rfl⟩ : ∃ (p : Fin 1024) (q : Fin 256), y = ix2 p q := ⟨y 0, y 1, eq_ix2 y⟩
  show out0_9 (dtBlk m c t) (hBlk m c t) (cBlk m c t) (cbarBlk m c t) (wBlk m c t) (bBlk m c t) (ix2 p q)
    = targetNew (hArr m c) (cbarArr m c) (wArr m c) (bArr m c) (((cfg0.win 9).blk t).view.emb (ix2 p q))
  rw [emb_out9]
  refine (out9_apply (dtBlk m c t) (hBlk m c t) (cBlk m c t) (cbarBlk m c t) (wBlk m c t) (bBlk m c t) p q).trans ?_
  unfold targetNew
  rw [blockLogit_eq, blockLogit_eq, blockLogit_eq, cbarBlk_apply]

/-- An index of the array is in point t's block iff each coordinate is in the block's range on its axis. -/
theorem mem_blk9 (t : Fin cfg0.N) (i : S65536x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v1_3).slice (win0_9.rect t)).set ↔ _
  rw [View.set_slice_whole, Rect.mem_set_unit]
  exact Iff.rfl

/-- Every index is in some point's block: row r is in the block of point r / 1024. -/
theorem cover9 (i : S65536x256.Idx) :
    ∃ t : Fin cfg0.N, (cfg0.win 9).flush t = true ∧ i ∈ ((cfg0.win 9).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_9 _, ?_⟩
  rw [mem_blk9]
  obtain ⟨e0, e1⟩ := idx_row9 ⟨(i 0).val / 1024, by rw [hN]; omega⟩
  intro a
  match a with
  | ⟨0, _⟩ =>
    show win0_9.index ⟨(i 0).val / 1024, _⟩ (0 : Fin 2) * 1024 ≤ (i 0).val ∧ (i 0).val < win0_9.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_9.index ⟨(i 0).val / 1024, _⟩ (1 : Fin 2) * 256 ≤ (i 1).val ∧ (i 1).val < win0_9.index ⟨(i 0).val / 1024, _⟩ (1 : Fin 2) * 256 + 256
    rw [e1]; omega

/-- The array after the run is the specification's function of the argument arrays. -/
theorem final9 (c : Dev nD) : (dats m 0 c).arrAt 9 cfg0.N = targetNew (m ((c : Thread nD τ).loc main_arg1)) (m ((c : Thread nD τ).loc main_arg3)) (m ((c : Thread nD τ).loc main_arg4)) (m ((c : Thread nD τ).loc main_arg5)) := by
  rw [(dats m 0 c).arrAt_eq_of_cover 9 (targetNew (hArr m c) (cbarArr m c) (wArr m c) (bArr m c)) (fun t _ => flushed9_eq m c t) cover9]
  show targetNew (V m c main_arg1) (V m c main_arg3) (V m c main_arg4) (V m c main_arg5) = _
  rw [V_main_arg1, V_main_arg3, V_main_arg4, V_main_arg5]

/-! ## Result array 4 (output window 10) -/

/-- Row p, unit q of point t's block of the result is row 1024·t + p, unit q of the array. -/
theorem emb_out10 (t : Fin cfg0.N) (p : Fin 1024) (q : Fin 256) :
    ((cfg0.win 10).blk t).view.emb (ix2 p q) = ix2 (row t p) q := by
  obtain ⟨e0, e1⟩ := idx_row10 t
  have hp : p.val < 1024 := p.isLt
  have hq : q.val < 256 := q.isLt
  funext a; apply Fin.ext
  match a with
  | ⟨0, _⟩ => show win0_10.index t (0 : Fin 2) * 1024 + 1 * p.val = t.val * 1024 + p.val; omega
  | ⟨1, _⟩ => show win0_10.index t (1 : Fin 2) * 256 + 1 * q.val = q.val; omega

/-- What point t writes back is block t of the specification's array. -/
theorem flushed10_eq (c : Dev nD) (t : Fin cfg0.N) :
    (dats m 0 c).flushed 10 t = ((cfg0.win 10).blk t).view.read (Elt Ideal) (decayOut (hArr m c) (wArr m c) (bArr m c)) := by
  rw [Value.flushed10]
  funext y
  obtain ⟨p, q, rfl⟩ : ∃ (p : Fin 1024) (q : Fin 256), y = ix2 p q := ⟨y 0, y 1, eq_ix2 y⟩
  show out0_10 (dtBlk m c t) (hBlk m c t) (cBlk m c t) (cbarBlk m c t) (wBlk m c t) (bBlk m c t) (ix2 p q)
    = decayOut (hArr m c) (wArr m c) (bArr m c) (((cfg0.win 10).blk t).view.emb (ix2 p q))
  rw [emb_out10]
  refine (out10_apply (dtBlk m c t) (hBlk m c t) (cBlk m c t) (cbarBlk m c t) (wBlk m c t) (bBlk m c t) p q).trans ?_
  unfold decayOut blockDecay decay
  rw [blockLogit_eq]

/-- An index of the array is in point t's block iff each coordinate is in the block's range on its axis. -/
theorem mem_blk10 (t : Fin cfg0.N) (i : S65536x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v1_4).slice (win0_10.rect t)).set ↔ _
  rw [View.set_slice_whole, Rect.mem_set_unit]
  exact Iff.rfl

/-- Every index is in some point's block: row r is in the block of point r / 1024. -/
theorem cover10 (i : S65536x256.Idx) :
    ∃ t : Fin cfg0.N, (cfg0.win 10).flush t = true ∧ i ∈ ((cfg0.win 10).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_10 _, ?_⟩
  rw [mem_blk10]
  obtain ⟨e0, e1⟩ := idx_row10 ⟨(i 0).val / 1024, by rw [hN]; omega⟩
  intro a
  match a with
  | ⟨0, _⟩ =>
    show win0_10.index ⟨(i 0).val / 1024, _⟩ (0 : Fin 2) * 1024 ≤ (i 0).val ∧ (i 0).val < win0_10.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_10.index ⟨(i 0).val / 1024, _⟩ (1 : Fin 2) * 256 ≤ (i 1).val ∧ (i 1).val < win0_10.index ⟨(i 0).val / 1024, _⟩ (1 : Fin 2) * 256 + 256
    rw [e1]; omega

/-- The array after the run is the specification's function of the argument arrays. -/
theorem final10 (c : Dev nD) : (dats m 0 c).arrAt 10 cfg0.N = decayOut (m ((c : Thread nD τ).loc main_arg1)) (m ((c : Thread nD τ).loc main_arg4)) (m ((c : Thread nD τ).loc main_arg5)) := by
  rw [(dats m 0 c).arrAt_eq_of_cover 10 (decayOut (hArr m c) (wArr m c) (bArr m c)) (fun t _ => flushed10_eq m c t) cover10]
  show decayOut (V m c main_arg1) (V m c main_arg4) (V m c main_arg5) = _
  rw [V_main_arg1, V_main_arg4, V_main_arg5]

/-! ## The run, read -/

/-- The frame run re-posted: each result array at the specification's function of the arguments, the arguments
    unchanged. -/
theorem run : θ_run defs (onTc (τ := τ) (main (F := Ideal))) ⟨m, fun _ => 0, ρ⟩ fun r => ∀ c : Dev nD,
      r.2.mem ((c : Thread nD τ).loc main_v1_0) = outGate (m ((c : Thread nD τ).loc main_arg1)) (m ((c : Thread nD τ).loc main_arg4)) (m ((c : Thread nD τ).loc main_arg5))
      ∧       r.2.mem ((c : Thread nD τ).loc main_v1_1) = hiddenNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧       r.2.mem ((c : Thread nD τ).loc main_v1_2) = cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧       r.2.mem ((c : Thread nD τ).loc main_v1_3) = targetNew (m ((c : Thread nD τ).loc main_arg1)) (m ((c : Thread nD τ).loc main_arg3)) (m ((c : Thread nD τ).loc main_arg4)) (m ((c : Thread nD τ).loc main_arg5))
      ∧       r.2.mem ((c : Thread nD τ).loc main_v1_4) = decayOut (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c),
      (h c).2.1.trans (final7 m c),
      (h c).2.2.1.trans (final8 m c),
      (h c).2.2.2.1.trans (final9 m c),
      (h c).2.2.2.2.1.trans (final10 m c),
      (h c).2.2.2.2.2⟩)
    (Value.run_blocks m ρ)

end Cert.CtLstm.Kernel

end
-- ==== Proof.RefLogit.lean ====
/-
  The reference's gate logits. Its batched product contracts W's input-unit axis against h's, laid out gate × unit × row, is
  transposed to gate × row × unit, and the bias is added along rows: at (g, r, o) that is
  Σ_k W[g, o, k] · h[r, k] + b[g, o], the specification's logit with the two factors of each product in the other order.
  Gate g's slice, reshaped to rows × units, reads it at (g, r, o).
-/
import proofs.«162727_j27230092657708_1_alg».proof.Proof.Gen.ReferenceIdeal.Read
import proofs.«162727_j27230092657708_1_alg».proof.Proof.Spec

noncomputable section

open scoped BigOperators

namespace Cert.CtLstm.Ref

open Cert.ReferenceIdeal Cert.ReferenceIdeal.Read Idealize.ShloMosaic Idealize.ShloMosaic.ValueIdx Cert.CtLstm

variable (h : Vec Ideal SBH .f32) (W : Vec Ideal SGHH .f32) (b : Vec Ideal SGH .f32)

/-- The biased batched product at (g, r, o) is gate g's logit at row r and unit o. -/
theorem preact_apply (g : Fin 7) (r : Fin 65536) (o : Fin 256) :
    val_main_v4 (F := Ideal) h W b (ix3 g r o) = logit h W b g r o := by
  rw [val_main_v4_apply, val_main_v1_apply, val_main_v0_apply, val_main_v3_apply, val_main_v2_apply]
  unfold logit
  show (∑ k : Fin 256, W (lidx_main_v0 (idx_main_v1 (ix3 g r o)) k) * h (ridx_main_v0 (idx_main_v1 (ix3 g r o)) k))
      + b (idx_main_v2 (idx_main_v3 (ix3 g r o))) = _
  have eW : ∀ k : Fin 256, lidx_main_v0 (idx_main_v1 (ix3 g r o)) k = ix3 g o k := fun k =>
    funext fun a => Fin.ext (by match a with | ⟨0, _⟩ => rfl | ⟨1, _⟩ => rfl | ⟨2, _⟩ => rfl)
  have eh : ∀ k : Fin 256, ridx_main_v0 (idx_main_v1 (ix3 g r o)) k = ix2 r k := fun k =>
    funext fun a => Fin.ext (by match a with | ⟨0, _⟩ => rfl | ⟨1, _⟩ => rfl)
  have eb : idx_main_v2 (idx_main_v3 (ix3 g r o)) = ix2 g o :=
    funext fun a => Fin.ext (by match a with | ⟨0, _⟩ => rfl | ⟨1, _⟩ => rfl)
  rw [eb]
  refine congrArg (· + b (ix2 g o)) (Finset.sum_congr rfl fun k _ => ?_)
  rw [eW k, eh k, mul_comm]

end Cert.CtLstm.Ref

end
-- ==== Proof.RefGates.lean ====
/-
  The reference's activations, read at one row and unit. Each gate's slice of the biased product is that gate's logit; the
  five σ gates are spelled 1 / (1 + e^(−x)), which is the logistic function by definition once the literal 1.0 is read as the
  number one; z is tanh of gate 5's logit; δ is jax's softplus of gate 6's logit, whose zero literal reads as the number
  zero. Then the cell update is the specification's, term for term.
-/
import proofs.«162727_j27230092657708_1_alg».proof.Proof.RefLogit
import Idealize.ShloMosaic.PureOps.Ideal.Laws

noncomputable section

open scoped BigOperators

namespace Cert.CtLstm.Ref

open Cert.ReferenceIdeal Cert.ReferenceIdeal.Read Idealize.ShloMosaic Idealize.ShloMosaic.ValueIdx Cert.CtLstm

/-- The f32 word 0x3F800000 is the number one. -/
theorem one_word : Ideal.ofBits .f32 0x3F800000#32 = 1 := IdealRules.sign_bit.ideal_onePat .f32

/-- 1.0 / (1.0 + e^(−x)) in the host's operations is the logistic function of x. -/
theorem logistic_expanded (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.logistic x
  rw [one_word]
  rfl

variable (dt : Vec Ideal SB .f32) (h c cbar : Vec Ideal SBH .f32) (W : Vec Ideal SGHH .f32) (b : Vec Ideal SGH .f32)

/-- Gate 0's slice of the biased product, as rows × units, is that gate's logit. -/
theorem slice0_apply (r : Fin 65536) (o : Fin 256) : val_main_v6 (F := Ideal) h W b (ix2 r o) = logit h W b 0 r o := by
  rw [val_main_v6_apply, val_main_v5_apply]
  have e : idx_main_v5 (idx_main_v6 (ix2 r o)) = ix3 0 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 0 r o

/-- Gate 1's slice of the biased product, as rows × units, is that gate's logit. -/
theorem slice1_apply (r : Fin 65536) (o : Fin 256) : val_main_v14 (F := Ideal) h W b (ix2 r o) = logit h W b 1 r o := by
  rw [val_main_v14_apply, val_main_v13_apply]
  have e : idx_main_v13 (idx_main_v14 (ix2 r o)) = ix3 1 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 1 r o

/-- Gate 2's slice of the biased product, as rows × units, is that gate's logit. -/
theorem slice2_apply (r : Fin 65536) (o : Fin 256) : val_main_v22 (F := Ideal) h W b (ix2 r o) = logit h W b 2 r o := by
  rw [val_main_v22_apply, val_main_v21_apply]
  have e : idx_main_v21 (idx_main_v22 (ix2 r o)) = ix3 2 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 2 r o

/-- Gate 3's slice of the biased product, as rows × units, is that gate's logit. -/
theorem slice3_apply (r : Fin 65536) (o : Fin 256) : val_main_v30 (F := Ideal) h W b (ix2 r o) = logit h W b 3 r o := by
  rw [val_main_v30_apply, val_main_v29_apply]
  have e : idx_main_v29 (idx_main_v30 (ix2 r o)) = ix3 3 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 3 r o

/-- Gate 4's slice of the biased product, as rows × units, is that gate's logit. -/
theorem slice4_apply (r : Fin 65536) (o : Fin 256) : val_main_v38 (F := Ideal) h W b (ix2 r o) = logit h W b 4 r o := by
  rw [val_main_v38_apply, val_main_v37_apply]
  have e : idx_main_v37 (idx_main_v38 (ix2 r o)) = ix3 4 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 4 r o

/-- Gate 5's slice of the biased product, as rows × units, is that gate's logit. -/
theorem slice5_apply (r : Fin 65536) (o : Fin 256) : val_main_v46 (F := Ideal) h W b (ix2 r o) = logit h W b 5 r o := by
  rw [val_main_v46_apply, val_main_v45_apply]
  have e : idx_main_v45 (idx_main_v46 (ix2 r o)) = ix3 5 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 5 r o

/-- Gate 6's slice of the biased product, as rows × units, is that gate's logit. -/
theorem slice6_apply (r : Fin 65536) (o : Fin 256) : val_main_v49 (F := Ideal) h W b (ix2 r o) = logit h W b 6 r o := by
  rw [val_main_v49_apply, val_main_v48_apply]
  have e : idx_main_v48 (idx_main_v49 (ix2 r o)) = ix3 6 r o := funext fun a => Fin.ext (by
    have h0 : r.val < 65536 := r.isLt
    have h1 : o.val < 256 := o.isLt
    match a with
    | ⟨0, _⟩ => rfl
    | ⟨1, _⟩ => show (r.val * 256 + o.val) / 256 % 65536 = r.val; omega
    | ⟨2, _⟩ => show (r.val * 256 + o.val) % 256 = o.val; omega)
  rw [e]
  exact preact_apply h W b 6 r o

/-- The reference's σ of gate 0: one over one plus e to the minus logit. -/
theorem sigma0_apply (r : Fin 65536) (o : Fin 256) : val_main_v12 (F := Ideal) h W b (ix2 r o) = Ideal.logistic (logit h W b 0 r o) := by
  rw [val_main_v12_apply, val_main_v11_apply, val_main_cst_0_apply, val_main_v10_apply, val_main_v9_apply, val_main_cst_apply,
    val_main_v8_apply, val_main_v7_apply, slice0_apply]
  exact logistic_expanded _

/-- The reference's σ of gate 1: one over one plus e to the minus logit. -/
theorem sigma1_apply (r : Fin 65536) (o : Fin 256) : val_main_v20 (F := Ideal) h W b (ix2 r o) = Ideal.logistic (logit h W b 1 r o) := by
  rw [val_main_v20_apply, val_main_v19_apply, val_main_cst_2_apply, val_main_v18_apply, val_main_v17_apply, val_main_cst_1_apply,
    val_main_v16_apply, val_main_v15_apply, slice1_apply]
  exact logistic_expanded _

/-- The reference's σ of gate 2: one over one plus e to the minus logit. -/
theorem sigma2_apply (r : Fin 65536) (o : Fin 256) : val_main_v28 (F := Ideal) h W b (ix2 r o) = Ideal.logistic (logit h W b 2 r o) := by
  rw [val_main_v28_apply, val_main_v27_apply, val_main_cst_4_apply, val_main_v26_apply, val_main_v25_apply, val_main_cst_3_apply,
    val_main_v24_apply, val_main_v23_apply, slice2_apply]
  exact logistic_expanded _

/-- The reference's σ of gate 3: one over one plus e to the minus logit. -/
theorem sigma3_apply (r : Fin 65536) (o : Fin 256) : val_main_v36 (F := Ideal) h W b (ix2 r o) = Ideal.logistic (logit h W b 3 r o) := by
  rw [val_main_v36_apply, val_main_v35_apply, val_main_cst_6_apply, val_main_v34_apply, val_main_v33_apply, val_main_cst_5_apply,
    val_main_v32_apply, val_main_v31_apply, slice3_apply]
  exact logistic_expanded _

/-- The reference's σ of gate 4: one over one plus e to the minus logit. -/
theorem sigma4_apply (r : Fin 65536) (o : Fin 256) : val_main_v44 (F := Ideal) h W b (ix2 r o) = Ideal.logistic (logit h W b 4 r o) := by
  rw [val_main_v44_apply, val_main_v43_apply, val_main_cst_8_apply, val_main_v42_apply, val_main_v41_apply, val_main_cst_7_apply,
    val_main_v40_apply, val_main_v39_apply, slice4_apply]
  exact logistic_expanded _

/-- The reference's z: tanh of gate 5's logit. -/
theorem candidate_apply (r : Fin 65536) (o : Fin 256) : val_main_v47 (F := Ideal) h W b (ix2 r o) = Ideal.tanh (logit h W b 5 r o) := by
  rw [val_main_v47_apply, slice5_apply]
  rfl

/-- The reference's δ: the called softplus of gate 6's logit is the specification's. -/
theorem decay_apply (r : Fin 65536) (o : Fin 256) : val_main_v50 (F := Ideal) h W b (ix2 r o) = decay h W b r o := by
  simp only [val_main_v50_apply, val_main_call0_v4_apply, val_main_call0_v6_apply, val_main_call0_v11_apply,
    val_main_call0_v3_apply, val_main_call0_v1_apply, val_main_call0_v10_apply, val_main_call0_v9_apply,
    val_main_call0_v8_apply, val_main_call0_v7_apply, val_main_call0_v0_apply, val_main_call0_v2_apply,
    val_main_call0_v5_apply, val_main_call0_cst_apply, slice6_apply]
  unfold decay softplus
  simp only [Ideal.ofBits_def, Ideal.ofBits_zero_f32]
  rfl

/-- The reference's decayed cell state c(t). -/
theorem cell_apply (r : Fin 65536) (o : Fin 256) : val_main_v58 (F := Ideal) dt h c cbar W b (ix2 r o) = cellAt dt h c cbar W b r o := by
  simp only [val_main_v58_apply, val_main_v57_apply, val_main_v52_apply, val_main_v56_apply, val_main_v55_apply,
    val_main_v53_apply, val_main_v54_apply, val_main_v51_apply, decay_apply]
  have et : idx_main_v51 (idx_main_v54 (ix2 r o)) = ix1 r := funext fun a => Fin.ext (by match a with | ⟨0, _⟩ => rfl)
  rw [et]
  rfl

/-- Result 0 of the reference is the output gate. -/
theorem outGate_eq : val_main_v28 (F := Ideal) h W b = outGate h W b := funext fun i => by
  obtain ⟨r, o, rfl⟩ : ∃ (r : Fin 65536) (o : Fin 256), i = ix2 r o := ⟨i 0, i 1, eq_ix2 i⟩
  exact sigma2_apply h W b r o

/-- Result 1 of the reference is the new hidden state. -/
theorem hiddenNew_eq : val_main_v66 (F := Ideal) dt h c cbar W b = hiddenNew dt h c cbar W b := funext fun i => by
  obtain ⟨r, o, rfl⟩ : ∃ (r : Fin 65536) (o : Fin 256), i = ix2 r o := ⟨i 0, i 1, eq_ix2 i⟩
  rw [val_main_v66_apply, val_main_v65_apply, sigma2_apply, cell_apply]
  rfl

/-- Result 2 of the reference is the new cell state. -/
theorem cellNew_eq : val_main_v61 (F := Ideal) dt h c cbar W b = cellNew dt h c cbar W b := funext fun i => by
  obtain ⟨r, o, rfl⟩ : ∃ (r : Fin 65536) (o : Fin 256), i = ix2 r o := ⟨i 0, i 1, eq_ix2 i⟩
  rw [val_main_v61_apply, val_main_v59_apply, val_main_v60_apply, sigma1_apply, cell_apply, sigma0_apply, candidate_apply]
  rfl

/-- Result 3 of the reference is the new cell target. -/
theorem targetNew_eq : val_main_v64 (F := Ideal) h cbar W b = targetNew h cbar W b := funext fun i => by
  obtain ⟨r, o, rfl⟩ : ∃ (r : Fin 65536) (o : Fin 256), i = ix2 r o := ⟨i 0, i 1, eq_ix2 i⟩
  rw [val_main_v64_apply, val_main_v62_apply, val_main_v63_apply, sigma4_apply, sigma3_apply, candidate_apply]
  rfl

/-- Result 4 of the reference is the decay rate. -/
theorem decayOut_eq : val_main_v50 (F := Ideal) h W b = decayOut h W b := funext fun i => by
  obtain ⟨r, o, rfl⟩ : ∃ (r : Fin 65536) (o : Fin 256), i = ix2 r o := ⟨i 0, i 1, eq_ix2 i⟩
  exact decay_apply h W b r o

end Cert.CtLstm.Ref

end
-- ==== Proof.lean ====
/-
  A continuous-time LSTM cell update: seven gate logits z_g = h · W_gᵀ + b_g from one hidden state, then
    i, f, o, ī, f̄ = σ(z_0 … z_4),  z = tanh(z_5),  δ = softplus(z_6),  c(t) = c̄ + (c − c̄) · exp(−δ · Δt),
  and the five results  o,  o · tanh(c(t)),  f · c(t) + i · z,  f̄ · c̄ + ī · z,  δ.

  The kernel walks the 65536 batch rows in 64 blocks of 1024, holding all of W and b, and computes each gate's product on the
  block in bf16 operands with an f32 accumulator started at zero; the reference computes all seven products as one batched
  contraction, transposes, adds the bias and slices the gates out. On the extended reals the change of float format is
  the identity, so both are the same sums Σ_k h[r, k] · W[g, o, k] + b[g, o] (the reference with the factors of each
  product in the other order), the kernel's logistic operation is by definition the reference's 1 / (1 + e^(−x)), both
  spell softplus as max(x, 0) + log(1 + e^(−|x|)) behind a guard that never fires (the kernel negating by subtracting from
  zero), and the rest of the update is the same operations in the same order. No step uses that the inputs are finite.

  Proof/Spec.lean states the five results as functions of the six arguments; Proof/RefLogit.lean and Proof/RefGates.lean
  read the reference's run as those functions; Proof/KernelDot.lean, Proof/KernelPoint.lean and Proof/KernelArray.lean read
  what the kernel leaves in each block, and then in each array, as the same functions.
-/
import proofs.«162727_j27230092657708_1_alg».proof.Defs
import proofs.«162727_j27230092657708_1_alg».proof.Proof.Gen.Kernel
import proofs.«162727_j27230092657708_1_alg».proof.Proof.Gen.Kernel.Skeleton
import proofs.«162727_j27230092657708_1_alg».proof.Proof.Gen.Kernel.Launch
import proofs.«162727_j27230092657708_1_alg».proof.Proof.Gen.Kernel.Points
import proofs.«162727_j27230092657708_1_alg».proof.Proof.Gen.Kernel.Frame
import proofs.«162727_j27230092657708_1_alg».proof.Proof.Gen.KernelIdeal
import proofs.«162727_j27230092657708_1_alg».proof.Proof.Gen.KernelIdeal.Skeleton
import proofs.«162727_j27230092657708_1_alg».proof.Proof.Gen.KernelIdeal.Launch
import proofs.«162727_j27230092657708_1_alg».proof.Proof.Gen.KernelIdeal.Points
import proofs.«162727_j27230092657708_1_alg».proof.Proof.Gen.KernelIdeal.Frame
import proofs.«162727_j27230092657708_1_alg».proof.Proof.Gen.ReferenceIdeal
import proofs.«162727_j27230092657708_1_alg».proof.Proof.Gen.Pre_finite_inputs
import proofs.«162727_j27230092657708_1_alg».proof.Proof.Gen.ReferenceIdeal.Run
import proofs.«162727_j27230092657708_1_alg».proof.Proof.Gen.ReferenceIdeal.Read
import proofs.«162727_j27230092657708_1_alg».proof.Proof.KernelArray
import proofs.«162727_j27230092657708_1_alg».proof.Proof.RefGates
import Idealize.ShloMosaic.Adequacy
import Idealize.ShloMosaic.Init

noncomputable section

namespace Cert.Proof

open Idealize.ShloMosaic Idealize.SL.Sem Cert.CtLstm

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its results dropped, is its frame. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- Both programs end with the five result arrays at the specification's functions of arguments that agree. -/
theorem algebraic : Cert.algebraic_KernelIdeal_ReferenceIdeal := by
  intro m ρ m' ρ' _ hagree
  refine ⟨_, _, _, _, _, Cert.CtLstm.Kernel.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  obtain ⟨h0, h1, h2, h3, h4, hrest⟩ := h c
  refine ⟨?_, ?_, ?_, ?_, ?_, hrest⟩
  · exact h0.trans ((Cert.ReferenceIdeal.Read.val_main_v28_eq _ _ _).trans ((Ref.outGate_eq _ _ _).trans (by rw [a1, a4, a5])))
  · exact h1.trans ((Cert.ReferenceIdeal.Read.val_main_v66_eq _ _).trans ((Ref.hiddenNew_eq _ _ _ _ _ _).trans (by rw [a0, a1, a2, a3, a4, a5])))
  · exact h2.trans ((Cert.ReferenceIdeal.Read.val_main_v61_eq _ _).trans ((Ref.cellNew_eq _ _ _ _ _ _).trans (by rw [a0, a1, a2, a3, a4, a5])))
  · exact h3.trans ((Cert.ReferenceIdeal.Read.val_main_v64_eq _ _ _ _).trans ((Ref.targetNew_eq _ _ _ _).trans (by rw [a1, a3, a4, a5])))
  · exact h4.trans ((Cert.ReferenceIdeal.Read.val_main_v50_eq _ _ _).trans ((Ref.decayOut_eq _ _ _).trans (by rw [a1, a4, a5])))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
